-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S4x2048 : Shape := ⟨2, ![4, 2048]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) (main_arg3 : IVec S4x2048 32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S4x2048 : Shape := ⟨2, ![4, 2048]⟩
abbrev S64x2048x64 : Shape := ⟨3, ![64, 2048, 64]⟩
abbrev S_ : Shape := ⟨0, ![]⟩
abbrev S4x1x1x2048 : Shape := ⟨4, ![4, 1, 1, 2048]⟩
abbrev S4x16x1x2048 : Shape := ⟨4, ![4, 16, 1, 2048]⟩
abbrev S64x1x2048 : Shape := ⟨3, ![64, 1, 2048]⟩
abbrev S1x1024x64 : Shape := ⟨3, ![1, 1024, 64]⟩
abbrev S1x512x64 : Shape := ⟨3, ![1, 512, 64]⟩
abbrev S1x1x512 : Shape := ⟨3, ![1, 1, 512]⟩
abbrev S1024x1 : Shape := ⟨2, ![1024, 1]⟩
abbrev S1024x64 : Shape := ⟨2, ![1024, 64]⟩
abbrev S512x64 : Shape := ⟨2, ![512, 64]⟩
abbrev S1024x512 : Shape := ⟨2, ![1024, 512]⟩
abbrev S1x512 : Shape := ⟨2, ![1, 512]⟩
abbrev S1024 : Shape := ⟨1, ![1024]⟩

abbrev nBuf : Space → Nat
  | .hbm => 22
  | .vmem => 13
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x2048, .i32⟩
  | .hbm, ⟨4, _⟩ => ⟨S64x2048x64, .f32⟩
  | .hbm, ⟨5, _⟩ => ⟨S64x2048x64, .bf16⟩
  | .hbm, ⟨6, _⟩ => ⟨S64x2048x64, .f32⟩
  | .hbm, ⟨7, _⟩ => ⟨S64x2048x64, .bf16⟩
  | .hbm, ⟨8, _⟩ => ⟨S64x2048x64, .f32⟩
  | .hbm, ⟨9, _⟩ => ⟨S64x2048x64, .bf16⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S4x2048, .f32⟩
  | .hbm, ⟨14, _⟩ => ⟨S_, .f32⟩
  | .hbm, ⟨15, _⟩ => ⟨S4x2048, .f32⟩
  | .hbm, ⟨16, _⟩ => ⟨S4x2048, .f32⟩
  | .hbm, ⟨17, _⟩ => ⟨S4x1x1x2048, .f32⟩
  | .hbm, ⟨18, _⟩ => ⟨S4x16x1x2048, .f32⟩
  | .hbm, ⟨19, _⟩ => ⟨S64x1x2048, .f32⟩
  | .hbm, ⟨20, _⟩ => ⟨S64x2048x64, .f32⟩
  | .hbm, ⟨21, _⟩ => ⟨S4x16x2048x64, .f32⟩
  | .local _ .vmem, ⟨0, _⟩ => ⟨S1x1024x64, .bf16⟩
  | .local _ .vmem, ⟨1, _⟩ => ⟨S1x1024x64, .bf16⟩
  | .local _ .vmem, ⟨2, _⟩ => ⟨S1x512x64, .bf16⟩
  | .local _ .vmem, ⟨3, _⟩ => ⟨S1x512x64, .bf16⟩
  | .local _ .vmem, ⟨4, _⟩ => ⟨S1x512x64, .bf16⟩
  | .local _ .vmem, ⟨5, _⟩ => ⟨S1x512x64, .bf16⟩
  | .local _ .vmem, ⟨6, _⟩ => ⟨S1x1x512, .f32⟩
  | .local _ .vmem, ⟨7, _⟩ => ⟨S1x1x512, .f32⟩
  | .local _ .vmem, ⟨8, _⟩ => ⟨S1x1024x64, .f32⟩
  | .local _ .vmem, ⟨9, _⟩ => ⟨S1x1024x64, .f32⟩
  | .local _ .vmem, ⟨10, _⟩ => ⟨S1024x1, .f32⟩
  | .local _ .vmem, ⟨11, _⟩ => ⟨S1024x1, .f32⟩
  | .local _ .vmem, ⟨12, _⟩ => ⟨S1024x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![64, 2, 4], ![false, false, false]⟩

def k0_cond2 (i : grid0.Coords) : BitVec 1 :=
  let arg2 : BitVec 32 := BitVec.ofNat 32 (i 2).val
  let c3_i32 : BitVec 32 := 3#32
  let v46 : BitVec 1 := Scalar.cmpi .eq arg2 c3_i32
  let v47 : BitVec 32 := Scalar.extui v46
  let c0_i32_30 : BitVec 32 := 0#32
  let v48 : BitVec 1 := Scalar.cmpi .ne v47 c0_i32_30
  v48

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x16x2048x64_S64x2048x64 : S4x16x2048x64.ShapeCasts S64x2048x64
  bitsLt_bf16_f32 : FTy.bits .bf16 < FTy.bits .f32
  bcast_S_S4x2048 : S_.BroadcastsInDim S4x2048 (![] : Fin 0 → Fin S4x2048.rank)
  bcast_S4x2048_S4x1x1x2048_0_3 : S4x2048.BroadcastsInDim S4x1x1x2048 (![0, 3] : Fin 2 → Fin S4x1x1x2048.rank)
  bcast_S4x1x1x2048_S4x16x1x2048_0_1_2_3 : S4x1x1x2048.BroadcastsInDim S4x16x1x2048 (![0, 1, 2, 3] : Fin 4 → Fin S4x16x1x2048.rank)
  shapeCasts_S4x16x1x2048_S64x1x2048 : S4x16x1x2048.ShapeCasts S64x1x2048
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S1024x512 : S1x512.Broadcasts S1024x512
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x64 : S1024x1.Broadcasts S1024x64
  shapeCasts_S1024x64_S1x1024x64 : S1024x64.ShapeCasts S1x1024x64
  shapeCasts_S64x2048x64_S4x16x2048x64 : S64x2048x64.ShapeCasts S4x16x2048x64
  dot_S1024x64_S512x64_S1024x512_1_1_0_0_n_n_wf : DotDims.WF S1024x64 S512x64 S1024x512 [1] [1] [0] [0] [] []
  dot_S1024x512_S512x64_S1024x64_1_0_0_1_n_n_wf : DotDims.WF S1024x512 S512x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S64x2048x64.size a
  hwx0_0 : ∀ i : grid0.Coords, EltTy.bits .bf16 = 32 ∨ (Rect.block (s := S64x2048x64) S1x1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x64.size a ≤ S64x2048x64.size a
  hwx0_1 : ∀ i : grid0.Coords, EltTy.bits .bf16 = 32 ∨ (Rect.block (s := S64x2048x64) S1x512x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x64.size a ≤ S64x2048x64.size a
  hwx0_2 : ∀ i : grid0.Coords, EltTy.bits .bf16 = 32 ∨ (Rect.block (s := S64x2048x64) S1x512x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S64x1x2048.size a
  hwx0_3 : ∀ i : grid0.Coords, EltTy.bits .f32 = 32 ∨ (Rect.block (s := S64x1x2048) S1x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x64.size a ≤ S64x2048x64.size a
  hwx0_4 : ∀ i : grid0.Coords, EltTy.bits .f32 = 32 ∨ (Rect.block (s := S64x2048x64) S1x1024x64.size (cc0_transform_4 i) (hinb0_4 i)).WholeWords (EltTy.packing .f32)

variable [Facts₀]

def dot_S1024x64_S512x64_S1024x512_1_1_0_0_n_n : DotDims S1024x64 S512x64 S1024x512 where
  lhsContracting := [1]
  rhsContracting := [1]
  lhsNonContracting := [0]
  rhsNonContracting := [0]
  lhsBatch := []
  rhsBatch := []
  wf := dot_S1024x64_S512x64_S1024x512_1_1_0_0_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

abbrev win0_0 : Pipeline.Window sig grid0 :=
  Pipeline.Window.ofSpec (Memref.whole main_v1) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x16x2048x64 : Shape := ⟨4, ![4, 16, 2048, 64]⟩
abbrev S4x2048 : Shape := ⟨2, ![4, 2048]⟩
abbrev S4x16x2048x2048 : Shape := ⟨4, ![4, 16, 2048, 2048]⟩
abbrev S_ : Shape := ⟨0, ![]⟩
abbrev S4x1x1x2048 : Shape := ⟨4, ![4, 1, 1, 2048]⟩
abbrev S4x16x2048 : Shape := ⟨3, ![4, 16, 2048]⟩
abbrev S4x16x2048x1 : Shape := ⟨4, ![4, 16, 2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x2048, .i32⟩
  | .hbm, ⟨4, _⟩ => ⟨S4x16x2048x2048, .f32⟩
  | .hbm, ⟨5, _⟩ => ⟨S_, .f32⟩
  | .hbm, ⟨6, _⟩ => ⟨S4x16x2048x2048, .f32⟩
  | .hbm, ⟨7, _⟩ => ⟨S4x16x2048x2048, .f32⟩
  | .hbm, ⟨8, _⟩ => ⟨S4x2048, .f32⟩
  | .hbm, ⟨9, _⟩ => ⟨S4x1x1x2048, .f32⟩
  | .hbm, ⟨10, _⟩ => ⟨S_, .f32⟩
  | .hbm, ⟨11, _⟩ => ⟨S4x1x1x2048, .f32⟩
  | .hbm, ⟨12, _⟩ => ⟨S4x1x1x2048, .f32⟩
  | .hbm, ⟨13, _⟩ => ⟨S_, .f32⟩
  | .hbm, ⟨14, _⟩ => ⟨S4x1x1x2048, .f32⟩
  | .hbm, ⟨15, _⟩ => ⟨S4x1x1x2048, .f32⟩
  | .hbm, ⟨16, _⟩ => ⟨S4x16x2048x2048, .f32⟩
  | .hbm, ⟨17, _⟩ => ⟨S4x16x2048x2048, .f32⟩
  | .hbm, ⟨18, _⟩ => ⟨S_, .f32⟩
  | .hbm, ⟨19, _⟩ => ⟨S4x16x2048, .f32⟩
  | .hbm, ⟨20, _⟩ => ⟨S_, .f32⟩
  | .hbm, ⟨21, _⟩ => ⟨S4x16x2048, .f32⟩
  | .hbm, ⟨22, _⟩ => ⟨S4x16x2048, .f32⟩
  | .hbm, ⟨23, _⟩ => ⟨S4x16x2048x1, .f32⟩
  | .hbm, ⟨24, _⟩ => ⟨S4x16x2048x2048, .f32⟩
  | .hbm, ⟨25, _⟩ => ⟨S4x16x2048x2048, .f32⟩
  | .hbm, ⟨26, _⟩ => ⟨S4x16x2048x2048, .f32⟩
  | .hbm, ⟨27, _⟩ => ⟨S_, .f32⟩
  | .hbm, ⟨28, _⟩ => ⟨S4x16x2048, .f32⟩
  | .hbm, ⟨29, _⟩ => ⟨S4x16x2048x1, .f32⟩
  | .hbm, ⟨30, _⟩ => ⟨S4x16x2048x2048, .f32⟩
  | .hbm, ⟨31, _⟩ => ⟨S4x16x2048x2048, .f32⟩
  | .hbm, ⟨32, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  bcast_S4x2048_S4x1x1x2048_0_3 : S4x2048.BroadcastsInDim S4x1x1x2048 (![0, 3] : Fin 2 → Fin S4x1x1x2048.rank)
  bcast_S_S4x1x1x2048 : S_.BroadcastsInDim S4x1x1x2048 (![] : Fin 0 → Fin S4x1x1x2048.rank)
  bcast_S4x1x1x2048_S4x16x2048x2048_0_1_2_3 : S4x1x1x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Steps.lean ====
/-
  One grid point of the attention kernel as three functions of what the scratch held before it.

  At every grid point the kernel body reads a query block `q`, a key block `k`, a value block `v` and a row `b` of
  additive mask biases, and updates three scratch arrays: the running row maximum, the running normaliser and the
  running weighted sum.  The body's arithmetic is the generated payload terms; here they are grouped into the three
  update functions, the three reset values, and the final quotient that the last key chunk writes to the output.
-/
import proofs.«411152_j3040836845869_3_alg».proof.Proof.Gen.KernelIdeal.Skeleton

noncomputable section

namespace Cert.KernelIdeal.Online

open Idealize.ShloMosaic Cert.KernelIdeal Cert.KernelIdeal.Gen

variable {F : FTy → Type} [FloatOps F]

/-- The running row maximum after one more key chunk. -/
def stepM (q : Vec F S1x1024x64 .bf16) (k : Vec F S1x512x64 .bf16) (b : Vec F S1x1x512 .f32)
    (mo : Vec F S1024x1 .f32) : Vec F S1024x1 .f32 :=
  k0_pay3 (k0_pay10 q k b mo)

/-- The running normaliser after one more key chunk. -/
def stepL (q : Vec F S1x1024x64 .bf16) (k : Vec F S1x512x64 .bf16) (b : Vec F S1x1x512 .f32)
    (mo lo : Vec F S1024x1 .f32) : Vec F S1024x1 .f32 :=
  k0_pay1 (k0_pay13 q k b mo mo lo)

/-- The running weighted sum after one more key chunk. -/
def stepA (q : Vec F S1x1024x64 .bf16) (k : Vec F S1x512x64 .bf16) (v : Vec F S1x512x64 .bf16) (b : Vec F S1x1x512 .f32)
    (mo : Vec F S1024x1 .f32) (ao : Vec F S1024x64 .f32) : Vec F S1024x64 .f32 :=
  k0_pay2 (k0_pay8 v) (k0_pay11 q k b mo mo) (k0_pay12 q k b mo) ao

/-- What the last key chunk writes to the output block: the weighted sum over the normaliser. -/
def outO (a : Vec F S1024x64 .f32) (l : Vec F S1024x1 .f32) : Vec F S1x1024x64 .f32 :=
  k0_pay4 a l

/-- The reset values: minus infinity for the maximum, zero for the two sums. -/
def initM : Vec F S1024x1 .f32 := k0_pay5 (F := F)
def initL : Vec F S1024x1 .f32 := k0_pay6 (F := F)
def initA : Vec F S1024x64 .f32 := k0_pay7 (F := F)

end Cert.KernelIdeal.Online

end
-- ==== Proof.Pieces.lean ====
/-
  What each case of the kernel body leaves behind, as the update functions of the scratch.

  The first key chunk of a query tile resets the scratch (maximum to minus infinity, sums to zero) and then updates
  it; the middle chunks update what the chunk before left; the last chunk updates and then writes the quotient of
  the weighted sum by the normaliser to the output block.
-/
import proofs.«411152_j3040836845869_3_alg».proof.Proof.Gen.KernelIdeal.Frame
import proofs.«411152_j3040836845869_3_alg».proof.Proof.Steps
import Idealize.ShloMosaic.Lib.Tactic
import Idealize.ShloMosaic.Lib.Pipeline.Value

set_option maxRecDepth 16384

noncomputable section

namespace Cert.KernelIdeal.Online

open Idealize.ShloMosaic Idealize.ShloMosaic.TcCoe Idealize.ShloMosaic.Tactic Idealize.SL.Sem
open Cert.KernelIdeal Cert.KernelIdeal.Gen

variable {F : FTy → Type} [FloatOps F]

/-- The zero offset of a two-axis block, as the constant function. -/
private theorem hz : (![0, 0] : Fin 2 → Nat) = fun _ => 0 := funext fun a => by fin_cases a <;> rfl

/-- The zero offset of a three-axis block, as the constant function. -/
private theorem hz3 : (![0, 0, 0] : Fin 3 → Nat) = fun _ => 0 := funext fun a => by fin_cases a <;> rfl

/-! ## The first chunk: reset, then update

Each scratch array is stored twice, whole: first the reset value, then the update.  The later store covers, so the
array ends as the update's payload; the update's reads of the scratch come after the reset store and so read the
reset values. -/

theorem sout_A_0 (c : Dev nD) (i : grid0.Coords) (arg3 : Memref sig .tc .vmem S1x1024x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x1x512 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : cond0_0 i) (hc1 : ¬cond0_1 i)
    (x0 : Vec F S1x1024x64 .bf16) (x1 : Vec F S1x512x64 .bf16) (x2 : Vec F S1x512x64 .bf16) (x3 : Vec F S1x1x512 .f32) :
    sout0_A_0 c i arg3 harg3 arg4 harg4 arg5 harg5 arg6 harg6 arg7 harg7 arg8 harg8 arg9 harg9 arg10 harg10 hc0 hc1 x0 x1 x2 x3 = stepM x0 x1 x3 initM := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S1024x1) hz]
  simp only [View.readAt_eq_ld, harg3.read_unread, harg4.read_unread, harg5.read_unread, harg6.read_unread,
    harg8.read_unread, harg9.read_unread, harg10.read_unread,
    View.readCov_unit_zero (S := S1024x1) _ hz, View.readCov_unit_zero (S := S1024x64) _ hz,
    View.ld_unit_zero (S := S1024x1) hz, View.ld_unit_zero (S := S1024x64) hz, View.ld_unit_zero (S := S1x1024x64) hz3,
    View.ld_unit_zero (S := S1x512x64) hz3, View.ld_unit_zero (S := S1x1x512) hz3]
  rfl

theorem sout_A_1 (c : Dev nD) (i : grid0.Coords) (arg3 : Memref sig .tc .vmem S1x1024x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x1x512 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : cond0_0 i) (hc1 : ¬cond0_1 i)
    (x0 : Vec F S1x1024x64 .bf16) (x1 : Vec F S1x512x64 .bf16) (x2 : Vec F S1x512x64 .bf16) (x3 : Vec F S1x1x512 .f32) :
    sout0_A_1 c i arg3 harg3 arg4 harg4 arg5 harg5 arg6 harg6 arg7 harg7 arg8 harg8 arg9 harg9 arg10 harg10 hc0 hc1 x0 x1 x2 x3 = stepL x0 x1 x3 initM initL := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S1024x1) hz]
  simp only [View.readAt_eq_ld, harg3.read_unread, harg4.read_unread, harg5.read_unread, harg6.read_unread,
    harg8.read_unread, harg9.read_unread, harg10.read_unread,
    View.readCov_unit_zero (S := S1024x1) _ hz, View.readCov_unit_zero (S := S1024x64) _ hz,
    View.ld_unit_zero (S := S1024x1) hz, View.ld_unit_zero (S := S1024x64) hz, View.ld_unit_zero (S := S1x1024x64) hz3,
    View.ld_unit_zero (S := S1x512x64) hz3, View.ld_unit_zero (S := S1x1x512) hz3]
  rfl

theorem sout_A_2 (c : Dev nD) (i : grid0.Coords) (arg3 : Memref sig .tc .vmem S1x1024x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x1x512 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : cond0_0 i) (hc1 : ¬cond0_1 i)
    (x0 : Vec F S1x1024x64 .bf16) (x1 : Vec F S1x512x64 .bf16) (x2 : Vec F S1x512x64 .bf16) (x3 : Vec F S1x1x512 .f32) :
    sout0_A_2 c i arg3 harg3 arg4 harg4 arg5 harg5 arg6 harg6 arg7 harg7 arg8 harg8 arg9 harg9 arg10 harg10 hc0 hc1 x0 x1 x2 x3 = stepA x0 x1 x2 x3 initM initA := by
  unfold sout0_A_2
  rw [View.read_writes_eq_canon _ _ _ (scover0_A_2 c i arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S1024x64) hz]
  simp only [View.readAt_eq_ld, harg3.read_unread, harg4.read_unread, harg5.read_unread, harg6.read_unread,
    harg8.read_unread, harg9.read_unread, harg10.read_unread,
    View.readCov_unit_zero (S := S1024x1) _ hz, View.readCov_unit_zero (S := S1024x64) _ hz,
    View.ld_unit_zero (S := S1024x1) hz, View.ld_unit_zero (S := S1024x64) hz, View.ld_unit_zero (S := S1x1024x64) hz3,
    View.ld_unit_zero (S := S1x512x64) hz3, View.ld_unit_zero (S := S1x1x512) hz3]
  rfl

/-! ## A middle chunk: update what the chunk before left

Each scratch array is stored once, whole, with the update's payload; every read is of a whole block. -/

theorem sout_B_0 (c : Dev nD) (i : grid0.Coords) (arg3 : Memref sig .tc .vmem S1x1024x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x1x512 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond0_0 i) (hc1 : ¬cond0_1 i)
    (x0 : Vec F S1x1024x64 .bf16) (x1 : Vec F S1x512x64 .bf16) (x2 : Vec F S1x512x64 .bf16) (x3 : Vec F S1x1x512 .f32) (xs0 : Vec F S1024x1 .f32) (xs1 : Vec F S1024x1 .f32) (xs2 : Vec F S1024x64 .f32) :
    sout0_B_0 c i arg3 harg3 arg4 harg4 arg5 harg5 arg6 harg6 arg7 harg7 arg8 harg8 arg9 harg9 arg10 harg10 hc0 hc1 x0 x1 x2 x3 xs0 xs1 xs2 = stepM x0 x1 x3 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero hz]
  simp only [View.readAt_eq_ld, harg3.read_unread, harg4.read_unread, harg5.read_unread, harg6.read_unread,
    harg8.read_unread, harg9.read_unread, harg10.read_unread,
    View.readCov_unit_zero (S := S1024x1) _ hz, View.readCov_unit_zero (S := S1024x64) _ hz,
    View.ld_unit_zero (S := S1024x1) hz, View.ld_unit_zero (S := S1024x64) hz, View.ld_unit_zero (S := S1x1024x64) hz3,
    View.ld_unit_zero (S := S1x512x64) hz3, View.ld_unit_zero (S := S1x1x512) hz3]
  rfl

theorem sout_B_1 (c : Dev nD) (i : grid0.Coords) (arg3 : Memref sig .tc .vmem S1x1024x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x1x512 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond0_0 i) (hc1 : ¬cond0_1 i)
    (x0 : Vec F S1x1024x64 .bf16) (x1 : Vec F S1x512x64 .bf16) (x2 : Vec F S1x512x64 .bf16) (x3 : Vec F S1x1x512 .f32) (xs0 : Vec F S1024x1 .f32) (xs1 : Vec F S1024x1 .f32) (xs2 : Vec F S1024x64 .f32) :
    sout0_B_1 c i arg3 harg3 arg4 harg4 arg5 harg5 arg6 harg6 arg7 harg7 arg8 harg8 arg9 harg9 arg10 harg10 hc0 hc1 x0 x1 x2 x3 xs0 xs1 xs2 = stepL x0 x1 x3 xs0 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero hz]
  simp only [View.readAt_eq_ld, harg3.read_unread, harg4.read_unread, harg5.read_unread, harg6.read_unread,
    harg8.read_unread, harg9.read_unread, harg10.read_unread,
    View.readCov_unit_zero (S := S1024x1) _ hz, View.readCov_unit_zero (S := S1024x64) _ hz,
    View.ld_unit_zero (S := S1024x1) hz, View.ld_unit_zero (S := S1024x64) hz, View.ld_unit_zero (S := S1x1024x64) hz3,
    View.ld_unit_zero (S := S1x512x64) hz3, View.ld_unit_zero (S := S1x1x512) hz3]
  rfl

theorem sout_B_2 (c : Dev nD) (i : grid0.Coords) (arg3 : Memref sig .tc .vmem S1x1024x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x1x512 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond0_0 i) (hc1 : ¬cond0_1 i)
    (x0 : Vec F S1x1024x64 .bf16) (x1 : Vec F S1x512x64 .bf16) (x2 : Vec F S1x512x64 .bf16) (x3 : Vec F S1x1x512 .f32) (xs0 : Vec F S1024x1 .f32) (xs1 : Vec F S1024x1 .f32) (xs2 : Vec F S1024x64 .f32) :
    sout0_B_2 c i arg3 harg3 arg4 harg4 arg5 harg5 arg6 harg6 arg7 harg7 arg8 harg8 arg9 harg9 arg10 harg10 hc0 hc1 x0 x1 x2 x3 xs0 xs1 xs2 = stepA x0 x1 x2 x3 xs0 xs2 := by
  unfold sout0_B_2
  rw [View.read_writes_eq_canon _ _ _ (scover0_B_2 c i arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero hz]
  simp only [View.readAt_eq_ld, harg3.read_unread, harg4.read_unread, harg5.read_unread, harg6.read_unread,
    harg8.read_unread, harg9.read_unread, harg10.read_unread,
    View.readCov_unit_zero (S := S1024x1) _ hz, View.readCov_unit_zero (S := S1024x64) _ hz,
    View.ld_unit_zero (S := S1024x1) hz, View.ld_unit_zero (S := S1024x64) hz, View.ld_unit_zero (S := S1x1024x64) hz3,
    View.ld_unit_zero (S := S1x512x64) hz3, View.ld_unit_zero (S := S1x1x512) hz3]
  rfl

/-! ## The last chunk: update, then write the quotient

The scratch is updated as in a middle chunk.  The output block is stored once, whole; the quotient's two reads come
after the update stores, so they read the new weighted sum and the new normaliser. -/

theorem sout_C_0 (c : Dev nD) (i : grid0.Coords) (arg3 : Memref sig .tc .vmem S1x1024x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x1x512 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond0_0 i) (hc1 : cond0_1 i)
    (x0 : Vec F S1x1024x64 .bf16) (x1 : Vec F S1x512x64 .bf16) (x2 : Vec F S1x512x64 .bf16) (x3 : Vec F S1x1x512 .f32) (xs0 : Vec F S1024x1 .f32) (xs1 : Vec F S1024x1 .f32) (xs2 : Vec F S1024x64 .f32) :
    sout0_C_0 c i arg3 harg3 arg4 harg4 arg5 harg5 arg6 harg6 arg7 harg7 arg8 harg8 arg9 harg9 arg10 harg10 hc0 hc1 x0 x1 x2 x3 xs0 xs1 xs2 = stepM x0 x1 x3 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero hz]
  simp only [View.readAt_eq_ld, harg3.read_unread, harg4.read_unread, harg5.read_unread, harg6.read_unread,
    harg8.read_unread, harg9.read_unread, harg10.read_unread,
    View.readCov_unit_zero (S := S1024x1) _ hz, View.readCov_unit_zero (S := S1024x64) _ hz,
    View.ld_unit_zero (S := S1024x1) hz, View.ld_unit_zero (S := S1024x64) hz, View.ld_unit_zero (S := S1x1024x64) hz3,
    View.ld_unit_zero (S := S1x512x64) hz3, View.ld_unit_zero (S := S1x1x512) hz3]
  rfl

theorem sout_C_1 (c : Dev nD) (i : grid0.Coords) (arg3 : Memref sig .tc .vmem S1x1024x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x1x512 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond0_0 i) (hc1 : cond0_1 i)
    (x0 : Vec F S1x1024x64 .bf16) (x1 : Vec F S1x512x64 .bf16) (x2 : Vec F S1x512x64 .bf16) (x3 : Vec F S1x1x512 .f32) (xs0 : Vec F S1024x1 .f32) (xs1 : Vec F S1024x1 .f32) (xs2 : Vec F S1024x64 .f32) :
    sout0_C_1 c i arg3 harg3 arg4 harg4 arg5 harg5 arg6 harg6 arg7 harg7 arg8 harg8 arg9 harg9 arg10 harg10 hc0 hc1 x0 x1 x2 x3 xs0 xs1 xs2 = stepL x0 x1 x3 xs0 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero hz]
  simp only [View.readAt_eq_ld, harg3.read_unread, harg4.read_unread, harg5.read_unread, harg6.read_unread,
    harg8.read_unread, harg9.read_unread, harg10.read_unread,
    View.readCov_unit_zero (S := S1024x1) _ hz, View.readCov_unit_zero (S := S1024x64) _ hz,
    View.ld_unit_zero (S := S1024x1) hz, View.ld_unit_zero (S := S1024x64) hz, View.ld_unit_zero (S := S1x1024x64) hz3,
    View.ld_unit_zero (S := S1x512x64) hz3, View.ld_unit_zero (S := S1x1x512) hz3]
  rfl

theorem sout_C_2 (c : Dev nD) (i : grid0.Coords) (arg3 : Memref sig .tc .vmem S1x1024x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x1x512 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond0_0 i) (hc1 : cond0_1 i)
    (x0 : Vec F S1x1024x64 .bf16) (x1 : Vec F S1x512x64 .bf16) (x2 : Vec F S1x512x64 .bf16) (x3 : Vec F S1x1x512 .f32) (xs0 : Vec F S1024x1 .f32) (xs1 : Vec F S1024x1 .f32) (xs2 : Vec F S1024x64 .f32) :
    sout0_C_2 c i arg3 harg3 arg4 harg4 arg5 harg5 arg6 harg6 arg7 harg7 arg8 harg8 arg9 harg9 arg10 harg10 hc0 hc1 x0 x1 x2 x3 xs0 xs1 xs2 = stepA x0 x1 x2 x3 xs0 xs2 := by
  unfold sout0_C_2
  rw [View.read_writes_eq_canon _ _ _ (scover0_C_2 c i arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero hz]
  simp only [View.readAt_eq_ld, harg3.read_unread, harg4.read_unread, harg5.read_unread, harg6.read_unread,
    harg8.read_unread, harg9.read_unread, harg10.read_unread,
    View.readCov_unit_zero (S := S1024x1) _ hz, View.readCov_unit_zero (S := S1024x64) _ hz,
    View.ld_unit_zero (S := S1024x1) hz, View.ld_unit_zero (S := S1024x64) hz, View.ld_unit_zero (S := S1x1024x64) hz3,
    View.ld_unit_zero (S := S1x512x64) hz3, View.ld_unit_zero (S := S1x1x512) hz3]
  rfl

theorem out_C_4 (c : Dev nD) (i : grid0.Coords) (arg3 : Memref sig .tc .vmem S1x1024x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x1x512 .f32) (harg6 : arg6.IsWhole) (arg7 : Memref sig .tc .vmem S1x1024x64 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (hc0 : ¬cond0_0 i) (hc1 : cond0_1 i)
    (x0 : Vec F S1x1024x64 .bf16) (x1 : Vec F S1x512x64 .bf16) (x2 : Vec F S1x512x64 .bf16) (x3 : Vec F S1x1x512 .f32) (xs0 : Vec F S1024x1 .f32) (xs1 : Vec F S1024x1 .f32) (xs2 : Vec F S1024x64 .f32) :
    out0_C_4 c i arg3 harg3 arg4 harg4 arg5 harg5 arg6 harg6 arg7 harg7 arg8 harg8 arg9 harg9 arg10 harg10 hc0 hc1 x0 x1 x2 x3 xs0 xs1 xs2 = outO (stepA x0 x1 x2 x3 xs0 xs2) (stepL x0 x1 x3 xs0 xs1) := by
  unfold out0_C_4
  rw [View.read_writes_eq_canon _ _ _ (cover0_C_4 c i arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero hz3]
  simp only [View.readAt_eq_ld, harg3.read_unread, harg4.read_unread, harg5.read_unread, harg6.read_unread,
    harg8.read_unread, harg9.read_unread, harg10.read_unread,
    View.readCov_unit_zero (S := S1024x1) _ hz, View.readCov_unit_zero (S := S1024x64) _ hz,
    View.ld_unit_zero (S := S1024x1) hz, View.ld_unit_zero (S := S1024x64) hz, View.ld_unit_zero (S := S1x1024x64) hz3,
    View.ld_unit_zero (S := S1x512x64) hz3, View.ld_unit_zero (S := S1x1x512) hz3]
  rfl

end Cert.KernelIdeal.Online

end
-- ==== Proof.Carry.lean ====
/-
  The scratch after every grid point, by recursion on the point.

  Grid points come in groups of four (the four key chunks of one query tile).  After the first point of a group the
  scratch holds one update of the reset values; after each later point one update of what the point before left.
  The generated frame states the same recursion over the pieces each case's run found; here it is restated over the
  update functions, and the output block of a group's last point is the quotient of what that point leaves.
-/
import proofs.«411152_j3040836845869_3_alg».proof.Proof.Pieces

noncomputable section

namespace Cert.KernelIdeal.Online

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The four input blocks of grid point `t`, at their literal types. -/
abbrev qblk (c : Dev nD) (t : Fin cfg0.N) : Vec F S1x1024x64 .bf16 := iblk m c 0 t
abbrev kblk (c : Dev nD) (t : Fin cfg0.N) : Vec F S1x512x64 .bf16 := iblk m c 1 t
abbrev vblk (c : Dev nD) (t : Fin cfg0.N) : Vec F S1x512x64 .bf16 := iblk m c 2 t
abbrev bblk (c : Dev nD) (t : Fin cfg0.N) : Vec F S1x1x512 .f32 := iblk m c 3 t

/-- One update of a scratch triple (maximum, normaliser, weighted sum) by the blocks of point `t`. -/
def upd (c : Dev nD) (t : Fin cfg0.N) (s : Vec F S1024x1 .f32 × Vec F S1024x1 .f32 × Vec F S1024x64 .f32) :
    Vec F S1024x1 .f32 × Vec F S1024x1 .f32 × Vec F S1024x64 .f32 :=
  (stepM (qblk m c t) (kblk m c t) (bblk m c t) s.1,
   stepL (qblk m c t) (kblk m c t) (bblk m c t) s.1 s.2.1,
   stepA (qblk m c t) (kblk m c t) (vblk m c t) (bblk m c t) s.1 s.2.2)

/-- The scratch triple after grid point `n`. -/
def carried (c : Dev nD) : (n : ℕ) → n < cfg0.N → Vec F S1024x1 .f32 × Vec F S1024x1 .f32 × Vec F S1024x64 .f32
  | 0, h => upd m c ⟨0, h⟩ (initM, initL, initA)
  | n + 1, h =>
    if (n + 1) % 4 = 0 then upd m c ⟨n + 1, h⟩ (initM, initL, initA)
    else upd m c ⟨n + 1, h⟩ (carried c n (Nat.lt_of_succ_lt h))

/-- At the first point of a group: one update of the reset values. -/
theorem carried_first (c : Dev nD) (t : Fin cfg0.N) (h0 : t.val % 4 = 0) :
    carried m c t.val t.isLt = upd m c t (initM, initL, initA) := by
  obtain ⟨n, hn⟩ := t
  cases n with
  | zero => rfl
  | succ n =>
    simp only [carried]
    rw [if_pos h0]

/-- At a later point of a group: one update of what the point before left. -/
theorem carried_later (c : Dev nD) (t : Fin cfg0.N) (h0 : ¬t.val % 4 = 0) :
    carried m c t.val t.isLt
      = upd m c t (carried m c (t.val - 1) (Nat.lt_of_le_of_lt (Nat.sub_le _ _) t.isLt)) := by
  obtain ⟨n, hn⟩ := t
  cases n with
  | zero => exact absurd (Nat.zero_mod 4) h0
  | succ n =>
    simp only [carried]
    rw [if_neg h0]
    rfl

/-- One point of the induction: if the point before (when there is one in the same group) left the carried triple,
    so does this point. -/
private theorem scratch_step (c : Dev nD) (t : Fin cfg0.N)
    (ih : ∀ (k : ℕ) (hk : k < cfg0.N), k + 1 = t.val → (outsAt0 m c k hk).2 = carried m c k hk) :
    (outsAt0 m c t.val t.isLt).2 = carried m c t.val t.isLt := by
  by_cases h0 : t.val % 4 = 0
  · have h1 : ¬t.val % 4 = 3 := by omega
    rw [outsAt0_A m c t h0 h1]
    dsimp only
    rw [sout_A_0 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
      sout_A_1 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
      sout_A_2 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
      carried_first m c t h0]
    rfl
  · have hprev : (outsAt0 m c (t.val - 1) (Nat.lt_of_le_of_lt (Nat.sub_le _ _) t.isLt)).2
        = carried m c (t.val - 1) (Nat.lt_of_le_of_lt (Nat.sub_le _ _) t.isLt) :=
      ih (t.val - 1) _ (by omega)
    by_cases h1 : t.val % 4 = 3
    · rw [outsAt0_C m c t h0 h1]
      dsimp only
      rw [sout_C_0 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
        sout_C_1 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
        sout_C_2 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
        carried_later m c t h0, ← hprev]
      rfl
    · rw [outsAt0_B m c t h0 h1]
      dsimp only
      rw [sout_B_0 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
        sout_B_1 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
        sout_B_2 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
        carried_later m c t h0, ← hprev]
      rfl

/-- The generated recursion's scratch components are this triple. -/
theorem outsAt_scratch (c : Dev nD) : ∀ (n : ℕ) (h : n < cfg0.N), (outsAt0 m c n h).2 = carried m c n h := by
  intro n
  induction n with
  | zero =>
    intro h
    exact scratch_step m c ⟨0, h⟩ (fun k hk hkt => absurd hkt (Nat.succ_ne_zero k))
  | succ n ih =>
    intro h
    refine scratch_step m c ⟨n + 1, h⟩ (fun k hk hkt => ?_)
    have hkn : k = n := Nat.add_right_cancel hkt
    subst hkn
    exact ih hk

/-- The output block after a group's last point: the quotient of what that point leaves. -/
theorem outsAt_out (c : Dev nD) (t : Fin cfg0.N) (h3 : t.val % 4 = 3) :
    (outsAt0 m c t.val t.isLt).1
      = outO (carried m c t.val t.isLt).2.2 (carried m c t.val t.isLt).2.1 := by
  have h0 : ¬t.val % 4 = 0 := by omega
  have h1 : t.val % 4 = 3 := h3
  rw [outsAt0_C m c t h0 h1]
  dsimp only
  rw [out_C_4 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    carried_later m c t h0,
    ← outsAt_scratch m c (t.val - 1) (Nat.lt_of_le_of_lt (Nat.sub_le _ _) t.isLt)]
  rfl

end Cert.KernelIdeal.Online

end
-- ==== Proof.LibBlockedSum.lean ====
/-
  Sums over a blocked index.  A sum over `Fin N` with `N = n · m` is the double sum over `n` blocks of `m`
  positions, and an accumulation that starts at block 0 and adds one block after another reaches the whole sum:
  both over any additive commutative monoid (no subtraction and no finiteness are used, so they hold over the
  extended reals as they stand).
-/
import Mathlib.Data.Fintype.BigOperators
import Mathlib.Logic.Equiv.Fin.Basic
import Mathlib.Algebra.BigOperators.Group.Finset.Piecewise
import Mathlib.Algebra.BigOperators.Fin

open scoped BigOperators

namespace Cert.LibBlockedSum

variable {M : Type*} [AddCommMonoid M]

/-- Position `b` of block `a`, the blocks `m` long, as an index below `N = n · m`: `a · m + b`. -/
def blockIdx {N : ℕ} (n m : ℕ) (h : n * m = N) (a : Fin n) (b : Fin m) : Fin N :=
  ⟨a.val * m + b.val, by
    have ha : a.val + 1 ≤ n := a.isLt
    have hb : b.val < m := b.isLt
    calc a.val * m + b.val < a.val * m + m := Nat.add_lt_add_left hb _
      _ = (a.val + 1) * m := (Nat.succ_mul _ _).symm
      _ ≤ n * m := Nat.mul_le_mul_right m ha
      _ = N := h⟩

/-- Its value. -/
theorem blockIdx_val {N : ℕ} (n m : ℕ) (h : n * m = N) (a : Fin n) (b : Fin m) :
    (blockIdx n m h a b).val = a.val * m + b.val := rfl

/-- A sum over `Fin N`, `N = n · m`, is the double sum over the `n` blocks and the `m` positions of a block. -/
theorem sum_blocks {N : ℕ} (n m : ℕ) (h : n * m = N) (f : Fin N → M) :
    ∑ k : Fin N, f k = ∑ a : Fin n, ∑ b : Fin m, f (blockIdx n m h a b) := by
  subst h
  rw [← Equiv.sum_comp finProdFinEquiv f, Fintype.sum_prod_type]
  refine Finset.sum_congr rfl fun a _ => Finset.sum_congr rfl fun b _ => congrArg f (Fin.ext ?_)
  show b.val + m * a.val = a.val * m + b.val
  rw [Nat.add_comm, Nat.mul_comm]

/-- The sum of the terms `g 0, …, g k` of `g : Fin n → M`, written as a sum over all of `Fin n` with the later terms
    dropped (so that no index type depends on `k`). -/
def upto (n : ℕ) (g : Fin n → M) (k : ℕ) : M := ∑ a : Fin n, if a.val ≤ k then g a else 0

/-- Up to 0 it is the first term; -/
theorem upto_zero (n : ℕ) (g : Fin n → M) (h : 0 < n) : upto n g 0 = g ⟨0, h⟩ := by
  unfold upto
  rw [Finset.sum_eq_single (⟨0, h⟩ : Fin n)]
  · exact if_pos (Nat.le_refl 0)
  · intro b _ hb
    exact if_neg fun hle => hb (Fin.ext (Nat.le_zero.mp hle))
  · intro hnm; exact absurd (Finset.mem_univ _) hnm

/-- one step further it takes the next term; -/
theorem upto_succ (n : ℕ) (g : Fin n → M) (k : ℕ) (h : k + 1 < n) :
    upto n g (k + 1) = upto n g k + g ⟨k + 1, h⟩ := by
  unfold upto
  have e : ∀ a : Fin n, (if a.val ≤ k + 1 then g a else 0)
      = (if a.val ≤ k then g a else 0) + (if a = (⟨k + 1, h⟩ : Fin n) then g a else 0) := by
    intro a
    by_cases h1 : a.val ≤ k
    · have h2 : a ≠ (⟨k + 1, h⟩ : Fin n) := fun e => by
        have e' : a.val = k + 1 := congrArg Fin.val e
        omega
      rw [if_pos h1, if_pos (Nat.le_succ_of_le h1), if_neg h2, add_zero]
    · by_cases h3 : a = (⟨k + 1, h⟩ : Fin n)
      · have e' : a.val = k + 1 := congrArg Fin.val h3
        rw [if_pos (Nat.le_of_eq e'), if_neg h1, if_pos h3, zero_add]
      · have h4 : ¬a.val ≤ k + 1 := fun hle => h3 (Fin.ext (by show a.val = k + 1; omega))
        rw [if_neg h1, if_neg h4, if_neg h3, add_zero]
  rw [Finset.sum_congr rfl (fun a _ => e a), Finset.sum_add_distrib, Finset.sum_ite_eq']
  rw [if_pos (Finset.mem_univ _)]

/-- and once `k` is the last position it is the whole sum. -/
theorem upto_last (n : ℕ) (g : Fin n → M) (k : ℕ) (h : n ≤ k + 1) : upto n g k = ∑ a : Fin n, g a := by
  unfold upto
  exact Finset.sum_congr rfl fun a _ => if_pos (by have := a.isLt; omega)

end Cert.LibBlockedSum
-- ==== Proof.OnlineMath.lean ====
/-
  The arithmetic of the online softmax, on one query row.

  A row of attention scores is met chunk by chunk.  After each chunk the kernel keeps three numbers: a running
  maximum `m`, the sum `l` of `exp (s - m)` over the scores met so far, and, per output column, the sum `a` of
  `exp (s - m) * w` (`w` the value entry paired with score `s`).  When a new chunk raises the maximum from `m` to `m'`
  the old sums are rescaled by `exp (m - m')`, which is exactly what turns `exp (s - m)` into `exp (s - m')`.  At the
  end `a / l` is the softmax-weighted average of the `w`, and that average does not depend on which shift was
  subtracted in the exponent: any real `c` gives `(∑ exp (s - c) w) / (∑ exp (s - c)) = (∑ exp s · w) / (∑ exp s)`.
  So the running maximum never has to be identified with the true maximum: it only has to be a real number.
-/
import Mathlib.Analysis.SpecialFunctions.Exp
import Mathlib.Data.EReal.Basic
import Idealize.ShloMosaic.PureOps.Ideal
import proofs.«411152_j3040836845869_3_alg».proof.Proof.LibBlockedSum

open scoped BigOperators
open Idealize.ShloMosaic Cert.LibBlockedSum

noncomputable section

namespace Cert.Attn

/-- The running maximum after a chunk of scores `sc`: the old one against the chunk's (a fold of `max` from `-∞`). -/
def rowMax {n : ℕ} (m : EReal) (sc : Fin n → EReal) : EReal :=
  max m ((Finset.univ : Finset (Fin n)).fold max ⊥ sc)

/-- The running normaliser after the chunk: the old one rescaled to the new maximum, plus the chunk's terms. -/
def rowL {n : ℕ} (m l : EReal) (sc : Fin n → EReal) : EReal :=
  Ideal.exp (m - rowMax m sc) * l + ∑ k : Fin n, Ideal.exp (sc k - rowMax m sc)

/-- The running weighted sum after the chunk, for one output column with value entries `w`. -/
def rowA {n : ℕ} (m a : EReal) (sc w : Fin n → EReal) : EReal :=
  Ideal.exp (m - rowMax m sc) * a + ∑ k : Fin n, Ideal.exp (sc k - rowMax m sc) * w k

/-- The softmax-weighted average of `W` under scores `S`, over the reals. -/
def softmaxAvg {N : ℕ} (S W : Fin N → ℝ) : ℝ :=
  (∑ t : Fin N, Real.exp (S t) * W t) / (∑ t : Fin N, Real.exp (S t))

/-- The triple `(m, l, a)` stands for the chunks `0 … j` of the real scores `S` and values `W`: for some real shift
    `c`, `m = c`, `l = ∑ exp (S - c)` and `a = ∑ exp (S - c) · W` over those chunks. -/
def RowRep {nb bs : ℕ} (S W : Fin nb → Fin bs → ℝ) (j : ℕ) (m l a : EReal) : Prop :=
  ∃ c : ℝ, m = (c : EReal)
    ∧ l = ((upto nb (fun j' => ∑ k : Fin bs, Real.exp (S j' k - c)) j : ℝ) : EReal)
    ∧ a = ((upto nb (fun j' => ∑ k : Fin bs, Real.exp (S j' k - c) * W j' k) j : ℝ) : EReal)

/-- The inclusion of the reals carries a finite sum to the sum of the inclusions. -/
private theorem coe_sum {ι : Type*} (s : Finset ι) (f : ι → ℝ) :
    ((∑ i ∈ s, f i : ℝ) : EReal) = ∑ i ∈ s, ((f i : ℝ) : EReal) := by
  classical
  refine Finset.induction_on s ?_ ?_
  · rw [Finset.sum_empty, Finset.sum_empty, EReal.coe_zero]
  · intro a s ha ih
    rw [Finset.sum_insert ha, Finset.sum_insert ha, EReal.coe_add, ih]

/-- The inclusion of the reals carries `max` to `max`. -/
private theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- A fold of `max` from `-∞` over a finite set of reals is `-∞` when the set is empty and a real otherwise. -/
private theorem fold_max_aux {ι : Type*} [DecidableEq ι] (s : Finset ι) (f : ι → ℝ) :
    (s.fold max (⊥ : EReal) (fun k => ((f k : ℝ) : EReal)) = ⊥ ∧ s = ∅)
      ∨ ∃ c : ℝ, s.fold max (⊥ : EReal) (fun k => ((f k : ℝ) : EReal)) = (c : EReal) := by
  refine Finset.induction_on s ?_ ?_
  · left; exact ⟨Finset.fold_empty, rfl⟩
  · intro a s ha ih
    right
    rw [Finset.fold_insert ha]
    rcases ih with ⟨hb, _⟩ | ⟨c, hc⟩
    · exact ⟨f a, by rw [hb, max_bot_right]⟩
    · exact ⟨max (f a) c, by rw [hc, max_coe]⟩

/-- The exponential of a difference of two reals, taken in the extended reals, is the real exponential. -/
private theorem exp_sub_coe (s c : ℝ) :
    Ideal.exp (((s : ℝ) : EReal) - (c : EReal)) = ((Real.exp (s - c) : ℝ) : EReal) := by
  rw [← EReal.coe_sub, Ideal.exp_coe]

/-- A chunk's normaliser terms, all real. -/
private theorem chunk_l {n : ℕ} (s : Fin n → ℝ) (c : ℝ) :
    ∑ k : Fin n, Ideal.exp (((s k : ℝ) : EReal) - (c : EReal)) = ((∑ k : Fin n, Real.exp (s k - c) : ℝ) : EReal) := by
  rw [coe_sum]
  exact Finset.sum_congr rfl fun k _ => exp_sub_coe (s k) c

/-- A chunk's weighted terms, all real. -/
private theorem chunk_a {n : ℕ} (s w : Fin n → ℝ) (c : ℝ) :
    ∑ k : Fin n, Ideal.exp (((s k : ℝ) : EReal) - (c : EReal)) * ((w k : ℝ) : EReal)
      = ((∑ k : Fin n, Real.exp (s k - c) * w k : ℝ) : EReal) := by
  rw [coe_sum]
  exact Finset.sum_congr rfl fun k _ => by rw [exp_sub_coe, EReal.coe_mul]

/-- A common factor comes out of a partial sum of blocks. -/
private theorem upto_mul (n : ℕ) (r : ℝ) (g : Fin n → ℝ) (k : ℕ) :
    upto n (fun a => r * g a) k = r * upto n g k := by
  unfold upto
  rw [Finset.mul_sum]
  refine Finset.sum_congr rfl fun a _ => ?_
  by_cases h : a.val ≤ k
  · rw [if_pos h, if_pos h]
  · rw [if_neg h, if_neg h, mul_zero]

/-- Raising the shift from `c` to `c'` multiplies every term by `exp (c - c')`. -/
private theorem exp_rescale (s c c' : ℝ) : Real.exp (s - c') = Real.exp (c - c') * Real.exp (s - c) := by
  rw [← Real.exp_add]
  congr 1
  ring

/-- The softmax-weighted average does not depend on the shift subtracted in the exponent. -/
private theorem softmax_shift {N : ℕ} (S W : Fin N → ℝ) (c : ℝ) :
    (∑ t : Fin N, Real.exp (S t - c) * W t) / (∑ t : Fin N, Real.exp (S t - c)) = softmaxAvg S W := by
  unfold softmaxAvg
  have h1 : ∀ t, Real.exp (S t - c) = Real.exp (S t) * Real.exp (-c) := fun t => by
    rw [sub_eq_add_neg, Real.exp_add]
  have e1 : ∑ t : Fin N, Real.exp (S t - c) * W t = (∑ t : Fin N, Real.exp (S t) * W t) * Real.exp (-c) := by
    rw [Finset.sum_mul]
    exact Finset.sum_congr rfl fun t _ => by rw [h1 t]; ring
  have e2 : ∑ t : Fin N, Real.exp (S t - c) = (∑ t : Fin N, Real.exp (S t)) * Real.exp (-c) := by
    rw [Finset.sum_mul]
    exact Finset.sum_congr rfl fun t _ => h1 t
  rw [e1, e2, mul_div_mul_right _ _ (Real.exp_pos _).ne']

/-- The normaliser of a nonempty row is positive. -/
private theorem norm_pos {N : ℕ} (hN : 0 < N) (S : Fin N → ℝ) (c : ℝ) :
    0 < ∑ t : Fin N, Real.exp (S t - c) :=
  Finset.sum_pos (fun t _ => Real.exp_pos _) ⟨⟨0, hN⟩, Finset.mem_univ _⟩

/-- The quotient of two reals, taken in the extended reals, is the real quotient when the divisor is not zero. -/
private theorem div_coe_coe (x : ℝ) {y : ℝ} (h : y ≠ 0) :
    Ideal.div ((x : ℝ) : EReal) ((y : ℝ) : EReal) = ((x / y : ℝ) : EReal) := by
  rw [Ideal.div_coe h, ← EReal.coe_mul, mul_one_div]

/-- A fold of `max` from `-∞` over finitely many reals (at least one) is a real. -/
theorem fold_max_real {n : ℕ} (hn : 0 < n) (s : Fin n → ℝ) :
    ∃ c : ℝ, (Finset.univ : Finset (Fin n)).fold max (⊥ : EReal) (fun k => ((s k : ℝ) : EReal)) = (c : EReal) := by
  rcases fold_max_aux (Finset.univ : Finset (Fin n)) s with ⟨_, he⟩ | h
  · exact absurd he (Finset.ne_empty_of_mem (Finset.mem_univ (⟨0, hn⟩ : Fin n)))
  · exact h

/-- From the reset state `(-∞, 0, 0)` the first chunk leaves a triple that stands for chunk 0. -/
theorem rowRep_first {nb bs : ℕ} (S W : Fin nb → Fin bs → ℝ) (h0 : 0 < nb) (hbs : 0 < bs) :
    RowRep S W 0
      (rowMax ⊥ (fun k => ((S ⟨0, h0⟩ k : ℝ) : EReal)))
      (rowL ⊥ 0 (fun k => ((S ⟨0, h0⟩ k : ℝ) : EReal)))
      (rowA ⊥ 0 (fun k => ((S ⟨0, h0⟩ k : ℝ) : EReal)) (fun k => ((W ⟨0, h0⟩ k : ℝ) : EReal))) := by
  obtain ⟨c₁, hc₁⟩ := fold_max_real hbs (S ⟨0, h0⟩)
  have hm : rowMax ⊥ (fun k => ((S ⟨0, h0⟩ k : ℝ) : EReal)) = (c₁ : EReal) := by
    unfold rowMax
    rw [hc₁, max_bot_left]
  refine ⟨c₁, hm, ?_, ?_⟩
  · unfold rowL
    rw [hm, mul_zero, zero_add, chunk_l, upto_zero nb _ h0]
  · unfold rowA
    rw [hm, mul_zero, zero_add, chunk_a, upto_zero nb _ h0]

/-- One more chunk: a triple standing for chunks `0 … j` becomes one standing for chunks `0 … j + 1`. -/
theorem rowRep_next {nb bs : ℕ} (S W : Fin nb → Fin bs → ℝ) (j : ℕ) (hj : j + 1 < nb) (hbs : 0 < bs)
    {m l a : EReal} (h : RowRep S W j m l a) :
    RowRep S W (j + 1)
      (rowMax m (fun k => ((S ⟨j + 1, hj⟩ k : ℝ) : EReal)))
      (rowL m l (fun k => ((S ⟨j + 1, hj⟩ k : ℝ) : EReal)))
      (rowA m a (fun k => ((S ⟨j + 1, hj⟩ k : ℝ) : EReal)) (fun k => ((W ⟨j + 1, hj⟩ k : ℝ) : EReal))) := by
  obtain ⟨c, hm, hl, ha⟩ := h
  obtain ⟨c₁, hc₁⟩ := fold_max_real hbs (S ⟨j + 1, hj⟩)
  have hm' : rowMax m (fun k => ((S ⟨j + 1, hj⟩ k : ℝ) : EReal)) = ((max c c₁ : ℝ) : EReal) := by
    unfold rowMax
    rw [hc₁, hm, max_coe]
  refine ⟨max c c₁, hm', ?_, ?_⟩
  · unfold rowL
    rw [hm', hm, hl, exp_sub_coe, chunk_l, ← EReal.coe_mul, ← EReal.coe_add, upto_succ nb _ j hj, ← upto_mul]
    congr 3
    funext j'
    rw [Finset.mul_sum]
    exact Finset.sum_congr rfl fun k _ => (exp_rescale _ _ _).symm
  · unfold rowA
    rw [hm', hm, ha, exp_sub_coe, chunk_a, ← EReal.coe_mul, ← EReal.coe_add, upto_succ nb _ j hj, ← upto_mul]
    congr 3
    funext j'
    rw [Finset.mul_sum]
    exact Finset.sum_congr rfl fun k _ => by rw [exp_rescale (S j' k) c (max c c₁), mul_assoc]

/-- After the last chunk the quotient `a / l` is the softmax-weighted average over the whole row, the row's `N = nb · bs`
    positions read block by block. -/
theorem rowRep_last {N nb bs : ℕ} (hN : nb * bs = N) (hpos : 0 < N) (S' W' : Fin N → ℝ) (j : ℕ) (hj : nb ≤ j + 1)
    {m l a : EReal}
    (h : RowRep (fun j' k => S' (blockIdx nb bs hN j' k)) (fun j' k => W' (blockIdx nb bs hN j' k)) j m l a) :
    Ideal.div a l = ((softmaxAvg S' W' : ℝ) : EReal) := by
  obtain ⟨c, _, hl, ha⟩ := h
  rw [upto_last (M := ℝ) nb _ j hj, ← sum_blocks nb bs hN (fun t => Real.exp (S' t - c))] at hl
  rw [upto_last (M := ℝ) nb _ j hj, ← sum_blocks nb bs hN (fun t => Real.exp (S' t - c) * W' t)] at ha
  rw [hl, ha, div_coe_coe _ (norm_pos hpos S' c).ne', softmax_shift]

/-- The two-pass softmax of the reference, with any real shift `c` in the exponent: each weight is
    `exp (S t - c)` divided by the row's sum (taken from `0`), and the weighted sum of `W` is the same average. -/
theorem ref_row {N : ℕ} (hN : 0 < N) (S W : Fin N → ℝ) (c : ℝ) :
    ∑ t : Fin N, Ideal.div (Ideal.exp (((S t : ℝ) : EReal) - (c : EReal)))
        ((0 : EReal) + ∑ t' : Fin N, Ideal.exp (((S t' : ℝ) : EReal) - (c : EReal))) * ((W t : ℝ) : EReal)
      = ((softmaxAvg S W : ℝ) : EReal) := by
  have hL : (∑ t : Fin N, Real.exp (S t - c)) ≠ 0 := (norm_pos hN S c).ne'
  rw [← softmax_shift S W c, Finset.sum_div, coe_sum, zero_add, chunk_l]
  refine Finset.sum_congr rfl fun t _ => ?_
  rw [exp_sub_coe, div_coe_coe _ hL, ← EReal.coe_mul]
  congr 1
  ring

end Cert.Attn

end
-- ==== Proof.Consts.lean ====
/-
  The float constants the two programs spell, as the extended reals their bit patterns denote:
  minus infinity, zero, one, one eighth, and plus and minus one million.
-/
import Idealize.ShloMosaic.PureOps.Ideal

noncomputable section

namespace Cert.Attn.Consts

open Idealize.ShloMosaic

theorem ofBits_neg_inf : Ideal.ofBits .f32 0xFF800000#32 = (⊥ : EReal) := by
  simp [Ideal.ofBits, Ideal.ieee]

theorem ofBits_zero : Ideal.ofBits .f32 0x00000000#32 = (0 : EReal) := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem ofBits_million : Ideal.ofBits .f32 0x49742400#32 = ((1000000 : ℝ) : EReal) := by
  simp [Ideal.ofBits, Ideal.ieee, -EReal.coe_mul]; norm_num

theorem ofBits_neg_million : Ideal.ofBits .f32 0xC9742400#32 = ((-1000000 : ℝ) : EReal) := by
  simp [Ideal.ofBits, Ideal.ieee, -EReal.coe_mul]; norm_num

end Cert.Attn.Consts

end
-- ==== Proof.KernelStep.lean ====
/-
  The kernel body's arithmetic, read entry by entry over the extended reals.

  For query row `r` of the tile, the scores against the 512 keys of the chunk are
  `(∑ₑ q[r, e] · k[kk, e]) · (1/8) + b[kk]`; the new maximum is the old one against their maximum, the normaliser and
  the weighted sums are rescaled by `exp (old max - new max)` and take the chunk's `exp (score - new max)` terms.
-/
import proofs.«411152_j3040836845869_3_alg».proof.Proof.Steps
import proofs.«411152_j3040836845869_3_alg».proof.Proof.OnlineMath
import proofs.«411152_j3040836845869_3_alg».proof.Proof.Consts
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Online

open Idealize.ShloMosaic Idealize.ShloMosaic.ValueIdx Cert.KernelIdeal Cert.KernelIdeal.Gen Cert.Attn

/-- The chunk's scores for query row `r`: scaled dot products plus the mask bias. -/
def scoreRow (q : Vec Ideal S1x1024x64 .bf16) (k : Vec Ideal S1x512x64 .bf16) (b : Vec Ideal S1x1x512 .f32)
    (r : Fin 1024) : Fin 512 → EReal :=
  fun kk => (∑ e : Fin 64, q (ix3 (0 : Fin 1) r e) * k (ix3 (0 : Fin 1) kk e)) * Ideal.ofBits .f32 0x3E000000#32
    + b (ix3 (0 : Fin 1) (0 : Fin 1) kk)

/-! ## Layout operations on a column, read at an index -/

/-- A vector of `a` entries cast to one column reads, at `(i, u)`, entry `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over `b` columns reads, at `(p, c)`, the column's entry `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector reads, at an index, the exponential of the entry. -/
private theorem exp_apply {s : Shape} {φ : FTy} (x : FVec Ideal s φ) (i : s.Idx) : exp x i = Ideal.exp (x i) := rfl

/-- A row index of the reduced shape with column `k` put back is `(r, k)`. -/
private theorem lift_row (h : S1024x512.Reduces [1] S1024) (r : Fin 1024) (k : Fin (S1024x512.size 1)) :
    h.lift (ix1 r) k = ix2 r (⟨k.val, k.isLt⟩ : Fin 512) := by
  funext c; apply Fin.ext
  fin_cases c <;> rfl

/-! ## The two matrix products, read at an index -/

private theorem lhs_qk_0 (i : S1024x512.Idx) (q : dot_S1024x64_S512x64_S1024x512_1_1_0_0_n_n.contr.Idx) :
    (dot_S1024x64_S512x64_S1024x512_1_1_0_0_n_n.lhsIdx i q 0).val = (i 0).val := by
  unfold DotDims.lhsIdx
  rw [dif_neg (show ¬(0 : Fin S1024x64.rank) ∈ dot_S1024x64_S512x64_S1024x512_1_1_0_0_n_n.lhsBatch by decide), dif_pos (show (0 : Fin S1024x64.rank) ∈ dot_S1024x64_S512x64_S1024x512_1_1_0_0_n_n.lhsNonContracting by decide)]
  rfl
private theorem lhs_qk_1 (i : S1024x512.Idx) (q : dot_S1024x64_S512x64_S1024x512_1_1_0_0_n_n.contr.Idx) :
    (dot_S1024x64_S512x64_S1024x512_1_1_0_0_n_n.lhsIdx i q 1).val = (q ⟨0, by decide⟩).val :=
  dot_S1024x64_S512x64_S1024x512_1_1_0_0_n_n.lhsIdx_val_of_single rfl i q
private theorem rhs_qk_0 (i : S1024x512.Idx) (q : dot_S1024x64_S512x64_S1024x512_1_1_0_0_n_n.contr.Idx) :
    (dot_S1024x64_S512x64_S1024x512_1_1_0_0_n_n.rhsIdx i q 0).val = (i 1).val := by
  unfold DotDims.rhsIdx
  rw [dif_neg (show ¬(0 : Fin S512x64.rank) ∈ dot_S1024x64_S512x64_S1024x512_1_1_0_0_n_n.rhsBatch by decide), dif_pos (show (0 : Fin S512x64.rank) ∈ dot_S1024x64_S512x64_S1024x512_1_1_0_0_n_n.rhsNonContracting by decide)]
  rfl
private theorem rhs_qk_1 (i : S1024x512.Idx) (q : dot_S1024x64_S512x64_S1024x512_1_1_0_0_n_n.contr.Idx) :
    (dot_S1024x64_S512x64_S1024x512_1_1_0_0_n_n.rhsIdx i q 1).val = (q ⟨0, by decide⟩).val :=
  dot_S1024x64_S512x64_S1024x512_1_1_0_0_n_n.rhsIdx_val_of_single rfl i q

/-- The product of the query block with the key block, contracted over the 64 columns of both, into the zero
    accumulator: entry `(r, kk)` is the dot product of query row `r` with key row `kk`. -/
private theorem matmul_qk_apply (x : FVec Ideal S1024x64 .bf16) (y : FVec Ideal S512x64 .bf16) (r : Fin 1024) (kk : Fin 512) :
    matmul dot_S1024x64_S512x64_S1024x512_1_1_0_0_n_n none x y (constant (F := Ideal) S1024x512 .f32 0x00000000#32) (ix2 r kk)
      = ∑ e : Fin 64, x (ix2 r e) * y (ix2 kk e) := by
  simp only [matmul]
  rw [Ideal.matmul_constant_zero_apply, ← Equiv.sum_comp (ValueIdx.contrEquiv1 dot_S1024x64_S512x64_S1024x512_1_1_0_0_n_n 64 rfl rfl).symm]
  refine Finset.sum_congr rfl fun e _ => ?_
  have hk := ValueIdx.contrEquiv1_symm_val dot_S1024x64_S512x64_S1024x512_1_1_0_0_n_n 64 rfl rfl e
  have el : dot_S1024x64_S512x64_S1024x512_1_1_0_0_n_n.lhsIdx (ix2 r kk) ((ValueIdx.contrEquiv1 dot_S1024x64_S512x64_S1024x512_1_1_0_0_n_n 64 rfl rfl).symm e) = ix2 r e := funext fun a => Fin.ext (by
    match a with
    | ⟨0, _⟩ => exact lhs_qk_0 _ _
    | ⟨1, _⟩ => exact (lhs_qk_1 _ _).trans hk)
  have er : dot_S1024x64_S512x64_S1024x512_1_1_0_0_n_n.rhsIdx (ix2 r kk) ((ValueIdx.contrEquiv1 dot_S1024x64_S512x64_S1024x512_1_1_0_0_n_n 64 rfl rfl).symm e) = ix2 kk e := funext fun a => Fin.ext (by
    match a with
    | ⟨0, _⟩ => exact rhs_qk_0 _ _
    | ⟨1, _⟩ => exact (rhs_qk_1 _ _).trans hk)
  rw [el, er]

private theorem lhs_pv_0 (i : S1024x64.Idx) (q : dot_S1024x512_S512x64_S1024x64_1_0_0_1_n_n.contr.Idx) :
    (dot_S1024x512_S512x64_S1024x64_1_0_0_1_n_n.lhsIdx i q 0).val = (i 0).val := by
  unfold DotDims.lhsIdx
  rw [dif_neg (show ¬(0 : Fin S1024x512.rank) ∈ dot_S1024x512_S512x64_S1024x64_1_0_0_1_n_n.lhsBatch by decide), dif_pos (show (0 : Fin S1024x512.rank) ∈ dot_S1024x512_S512x64_S1024x64_1_0_0_1_n_n.lhsNonContracting by decide)]
  rfl
private theorem lhs_pv_1 (i : S1024x64.Idx) (q : dot_S1024x512_S512x64_S1024x64_1_0_0_1_n_n.contr.Idx) :
    (dot_S1024x512_S512x64_S1024x64_1_0_0_1_n_n.lhsIdx i q 1).val = (q ⟨0, by decide⟩).val :=
  dot_S1024x512_S512x64_S1024x64_1_0_0_1_n_n.lhsIdx_val_of_single rfl i q
private theorem rhs_pv_0 (i : S1024x64.Idx) (q : dot_S1024x512_S512x64_S1024x64_1_0_0_1_n_n.contr.Idx) :
    (dot_S1024x512_S512x64_S1024x64_1_0_0_1_n_n.rhsIdx i q 0).val = (q ⟨0, by decide⟩).val :=
  dot_S1024x512_S512x64_S1024x64_1_0_0_1_n_n.rhsIdx_val_of_single rfl i q
private theorem rhs_pv_1 (i : S1024x64.Idx) (q : dot_S1024x512_S512x64_S1024x64_1_0_0_1_n_n.contr.Idx) :
    (dot_S1024x512_S512x64_S1024x64_1_0_0_1_n_n.rhsIdx i q 1).val = (i 1).val := by
  unfold DotDims.rhsIdx
  rw [dif_neg (show ¬(1 : Fin S512x64.rank) ∈ dot_S1024x512_S512x64_S1024x64_1_0_0_1_n_n.rhsBatch by decide), dif_pos (show (1 : Fin S512x64.rank) ∈ dot_S1024x512_S512x64_S1024x64_1_0_0_1_n_n.rhsNonContracting by decide)]
  rfl

/-- The product of the chunk's weights with the value block, contracted over the 512 keys, into the zero accumulator:
    entry `(r, d)` is the sum over the keys of weight `(r, kk)` times value `(kk, d)`. -/
private theorem matmul_pv_apply (x : FVec Ideal S1024x512 .bf16) (y : FVec Ideal S512x64 .bf16) (r : Fin 1024) (d : Fin 64) :
    matmul dot_S1024x512_S512x64_S1024x64_1_0_0_1_n_n none x y (constant (F := Ideal) S1024x64 .f32 0x00000000#32) (ix2 r d)
      = ∑ kk : Fin 512, x (ix2 r kk) * y (ix2 kk d) := by
  simp only [matmul]
  rw [Ideal.matmul_constant_zero_apply, ← Equiv.sum_comp (ValueIdx.contrEquiv1 dot_S1024x512_S512x64_S1024x64_1_0_0_1_n_n 512 rfl rfl).symm]
  refine Finset.sum_congr rfl fun e _ => ?_
  have hk := ValueIdx.contrEquiv1_symm_val dot_S1024x512_S512x64_S1024x64_1_0_0_1_n_n 512 rfl rfl e
  have el : dot_S1024x512_S512x64_S1024x64_1_0_0_1_n_n.lhsIdx (ix2 r d) ((ValueIdx.contrEquiv1 dot_S1024x512_S512x64_S1024x64_1_0_0_1_n_n 512 rfl rfl).symm e) = ix2 r e := funext fun a => Fin.ext (by
    match a with
    | ⟨0, _⟩ => exact lhs_pv_0 _ _
    | ⟨1, _⟩ => exact (lhs_pv_1 _ _).trans hk)
  have er : dot_S1024x512_S512x64_S1024x64_1_0_0_1_n_n.rhsIdx (ix2 r d) ((ValueIdx.contrEquiv1 dot_S1024x512_S512x64_S1024x64_1_0_0_1_n_n 512 rfl rfl).symm e) = ix2 e d := funext fun a => Fin.ext (by
    match a with
    | ⟨0, _⟩ => exact (rhs_pv_0 _ _).trans hk
    | ⟨1, _⟩ => exact rhs_pv_1 _ _)
  rw [el, er]

/-! ## The payloads, read at an index -/

/-- The chunk's scores, entry by entry. -/
private theorem pay9_apply (q : Vec Ideal S1x1024x64 .bf16) (k : Vec Ideal S1x512x64 .bf16) (b : Vec Ideal S1x1x512 .f32)
    (r : Fin 1024) (kk : Fin 512) :
    k0_pay9 (F := Ideal) q k b (ix2 r kk) = scoreRow q k b r kk := by
  unfold k0_pay9 scoreRow
  rw [addf_apply, mulf_apply, broadcast_apply, matmul_qk_apply, broadcastTo_1b_ab_apply, shapeCast_1ab_ab_apply]
  simp only [shapeCast_1ab_ab_apply]
  rfl

/-- The new running maximum of row `r`: the old one against the maximum of the chunk's scores. -/
private theorem pay10_apply (q : Vec Ideal S1x1024x64 .bf16) (k : Vec Ideal S1x512x64 .bf16) (b : Vec Ideal S1x1x512 .f32)
    (mo : Vec Ideal S1024x1 .f32) (r : Fin 1024) :
    k0_pay10 (F := Ideal) q k b mo (ix2 r (0 : Fin 1)) = rowMax (mo (ix2 r (0 : Fin 1))) (scoreRow q k b r) := by
  unfold k0_pay10 rowMax
  rw [maximumf_apply, shapeCast_a_a1_apply]
  refine congrArg (max (mo (ix2 r (0 : Fin 1)))) ?_
  refine (Ideal.multiReduction_maximumf_single _ _ _ _ _ _).trans ?_
  have hf : (k0_pay9 (F := Ideal) q k b ∘ Facts₀.reduces_S1024x512_S1024.lift (ix1 r)) = scoreRow q k b r :=
    funext fun kk => (congrArg (k0_pay9 (F := Ideal) q k b) (lift_row _ r kk)).trans (pay9_apply q k b r ⟨kk.val, kk.isLt⟩)
  rw [hf]
  exact congrArg (fun z => Finset.fold max z (scoreRow q k b r) (Finset.univ : Finset (Fin 512))) Consts.ofBits_neg_inf

/-- The rescaling factor of row `r`: the exponential of an old maximum less the new one. -/
private theorem pay11_apply (q : Vec Ideal S1x1024x64 .bf16) (k : Vec Ideal S1x512x64 .bf16) (b : Vec Ideal S1x1x512 .f32)
    (mo m' : Vec Ideal S1024x1 .f32) (r : Fin 1024) :
    k0_pay11 (F := Ideal) q k b mo m' (ix2 r (0 : Fin 1))
      = Ideal.exp (m' (ix2 r (0 : Fin 1)) - rowMax (mo (ix2 r (0 : Fin 1))) (scoreRow q k b r)) := by
  unfold k0_pay11
  rw [exp_apply, subf_apply, pay10_apply]

/-- The chunk's weights: the exponential of each score less the new maximum of its row. -/
private theorem pay12_apply (q : Vec Ideal S1x1024x64 .bf16) (k : Vec Ideal S1x512x64 .bf16) (b : Vec Ideal S1x1x512 .f32)
    (mo : Vec Ideal S1024x1 .f32) (r : Fin 1024) (kk : Fin 512) :
    k0_pay12 (F := Ideal) q k b mo (ix2 r kk)
      = Ideal.exp (scoreRow q k b r kk - rowMax (mo (ix2 r (0 : Fin 1))) (scoreRow q k b r)) := by
  unfold k0_pay12
  rw [exp_apply, subf_apply, pay9_apply, broadcastTo_a1_ab_apply, pay10_apply]

/-- The new normaliser of row `r`. -/
private theorem pay13_apply (q : Vec Ideal S1x1024x64 .bf16) (k : Vec Ideal S1x512x64 .bf16) (b : Vec Ideal S1x1x512 .f32)
    (mo m' lo : Vec Ideal S1024x1 .f32) (r : Fin 1024) :
    k0_pay13 (F := Ideal) q k b mo m' lo (ix2 r (0 : Fin 1))
      = Ideal.exp (m' (ix2 r (0 : Fin 1)) - rowMax (mo (ix2 r (0 : Fin 1))) (scoreRow q k b r)) * lo (ix2 r (0 : Fin 1))
        + ∑ kk : Fin 512, Ideal.exp (scoreRow q k b r kk - rowMax (mo (ix2 r (0 : Fin 1))) (scoreRow q k b r)) := by
  unfold k0_pay13
  rw [addf_apply, mulf_apply, pay11_apply, shapeCast_a_a1_apply]
  refine congrArg₂ (fun x y : EReal => x + y) rfl ?_
  refine (Ideal.multiReduction_add_single _ _ _ _ _ _).trans ?_
  exact Finset.sum_congr rfl fun kk _ =>
    (congrArg (k0_pay12 (F := Ideal) q k b mo) (lift_row _ r kk)).trans (pay12_apply q k b mo r ⟨kk.val, kk.isLt⟩)

theorem stepM_apply (q : Vec Ideal S1x1024x64 .bf16) (k : Vec Ideal S1x512x64 .bf16) (b : Vec Ideal S1x1x512 .f32)
    (mo : Vec Ideal S1024x1 .f32) (r : Fin 1024) :
    stepM (F := Ideal) q k b mo (ix2 r (0 : Fin 1)) = rowMax (mo (ix2 r (0 : Fin 1))) (scoreRow q k b r) := by
  unfold stepM k0_pay3
  rw [shapeCast_self]
  exact pay10_apply q k b mo r

theorem stepL_apply (q : Vec Ideal S1x1024x64 .bf16) (k : Vec Ideal S1x512x64 .bf16) (b : Vec Ideal S1x1x512 .f32)
    (mo lo : Vec Ideal S1024x1 .f32) (r : Fin 1024) :
    stepL (F := Ideal) q k b mo lo (ix2 r (0 : Fin 1))
      = rowL (mo (ix2 r (0 : Fin 1))) (lo (ix2 r (0 : Fin 1))) (scoreRow q k b r) := by
  unfold stepL k0_pay1 rowL
  rw [shapeCast_self]
  exact pay13_apply q k b mo mo lo r

theorem stepA_apply (q : Vec Ideal S1x1024x64 .bf16) (k : Vec Ideal S1x512x64 .bf16) (v : Vec Ideal S1x512x64 .bf16)
    (b : Vec Ideal S1x1x512 .f32) (mo : Vec Ideal S1024x1 .f32) (ao : Vec Ideal S1024x64 .f32) (r : Fin 1024) (d : Fin 64) :
    stepA (F := Ideal) q k v b mo ao (ix2 r d)
      = rowA (mo (ix2 r (0 : Fin 1))) (ao (ix2 r d)) (scoreRow q k b r) (fun kk => v (ix3 (0 : Fin 1) kk d)) := by
  unfold stepA k0_pay2 k0_pay8 rowA
  rw [shapeCast_self, addf_apply, mulf_apply, broadcastTo_a1_ab_apply, pay11_apply, matmul_pv_apply]
  refine congrArg₂ (fun x y : EReal => x + y) rfl ?_
  refine Finset.sum_congr rfl fun kk _ => ?_
  rw [truncf_apply, pay12_apply, shapeCast_1ab_ab_apply]

theorem initM_apply (r : Fin 1024) : initM (F := Ideal) (ix2 r (0 : Fin 1)) = (⊥ : EReal) := by
  unfold initM k0_pay5
  rw [shapeCast_self, broadcast_apply]
  exact Consts.ofBits_neg_inf

theorem initL_apply (r : Fin 1024) : initL (F := Ideal) (ix2 r (0 : Fin 1)) = (0 : EReal) := by
  unfold initL k0_pay6
  rw [shapeCast_self, broadcast_apply]
  exact Consts.ofBits_zero

theorem initA_apply (r : Fin 1024) (d : Fin 64) : initA (F := Ideal) (ix2 r d) = (0 : EReal) := by
  unfold initA k0_pay7
  rw [shapeCast_self, broadcast_apply]
  exact Consts.ofBits_zero

theorem outO_apply (a : Vec Ideal S1024x64 .f32) (l : Vec Ideal S1024x1 .f32) (r : Fin 1024) (d : Fin 64) :
    outO (F := Ideal) a l (ix3 (0 : Fin 1) r d) = Ideal.div (a (ix2 r d)) (l (ix2 r (0 : Fin 1))) := by
  unfold outO k0_pay4
  rw [shapeCast_ab_1ab_apply, divf_apply, broadcastTo_a1_ab_apply]

end Cert.KernelIdeal.Online

end
-- ==== Proof.Spec.lean ====
/-
  What both programs compute, as one function of the four argument arrays.

  For batch `b`, head `h`, query position `s` and output column `d` the result is the softmax-weighted average of the
  value entries `V[b, h, t, d]` over the key positions `t`, under the scores
  `(∑ₑ Q[b, h, s, e] · K[b, h, t, e]) / 8 - 10⁶ · (1 - mask[b, t])`.
  It is stated over the reals (the arrays' real parts) and read back as an extended real.
-/
import proofs.«411152_j3040836845869_3_alg».proof.Proof.OnlineMath
import Idealize.ShloMosaic.Lib.ValueIdx

open scoped BigOperators
open Idealize.ShloMosaic Idealize.ShloMosaic.ValueIdx

noncomputable section

namespace Cert.Attn

/-- The shape of Q, K, V and of the result; the shape of the mask. -/
abbrev SQ : Shape := ⟨4, ![4, 16, 2048, 64]⟩
abbrev SMask : Shape := ⟨2, ![4, 2048]⟩

/-- The real score of query position `s` against key position `t`. -/
def scoreR (Q K : SQ.Idx → EReal) (M : SMask.Idx → BitVec 32) (b : Fin 4) (h : Fin 16) (s t : Fin 2048) : ℝ :=
  (∑ e : Fin 64, (Q (ix4 b h s e)).toReal * (K (ix4 b h t e)).toReal) * (1 / 8)
    - 1000000 * (1 - ((M (ix2 b t)).toInt : ℝ))

/-- The real value entry at key position `t`, output column `d`. -/
def valR (V : SQ.Idx → EReal) (b : Fin 4) (h : Fin 16) (d : Fin 64) (t : Fin 2048) : ℝ :=
  (V (ix4 b h t d)).toReal

/-- One result entry. -/
def Gat (Q K V : SQ.Idx → EReal) (M : SMask.Idx → BitVec 32) (b : Fin 4) (h : Fin 16) (s : Fin 2048) (d : Fin 64) : EReal :=
  ((softmaxAvg (scoreR Q K M b h s) (valR V b h d) : ℝ) : EReal)

/-- The whole result array. -/
def G (Q K V : SQ.Idx → EReal) (M : SMask.Idx → BitVec 32) : SQ.Idx → EReal := fun i =>
  Gat Q K V M ⟨(i 0).val, (i 0).isLt⟩ ⟨(i 1).val, (i 1).isLt⟩ ⟨(i 2).val, (i 2).isLt⟩ ⟨(i 3).val, (i 3).isLt⟩

theorem G_ix4 (Q K V : SQ.Idx → EReal) (M : SMask.Idx → BitVec 32) (b : Fin 4) (h : Fin 16) (s : Fin 2048) (d : Fin 64) :
    G Q K V M (ix4 b h s d) = Gat Q K V M b h s d := rfl

/-! ## Where a grid point sits

The grid has 64 × 2 × 4 = 512 points in row-major order: point `t` works on batch-head pair `t / 8`, query tile
`t / 4 % 2` (1024 rows) and key chunk `t % 4` (512 rows).  The batch-head pair `16 · b + h` is batch `b`, head `h`. -/

def batchOf (t : ℕ) (ht : t < 512) : Fin 4 := ⟨t / 128, by omega⟩
def headOf (t : ℕ) : Fin 16 := ⟨t / 8 % 16, Nat.mod_lt _ (by decide)⟩
/-- Query row `r` of the tile of point `t`, as a position of the sequence. -/
def qRow (t : ℕ) (r : Fin 1024) : Fin 2048 := ⟨1024 * (t / 4 % 2) + r.val, by have := r.isLt; omega⟩
/-- Key row `kk` of chunk `j`, as a position of the sequence. -/
def kRow (j : ℕ) (kk : Fin 512) : Fin 2048 := ⟨512 * (j % 4) + kk.val, by have := kk.isLt; omega⟩

end Cert.Attn

end
-- ==== Proof.Blocks.lean ====
/-
  The kernel's input blocks, entry by entry, as entries of the four argument arrays.

  Before the kernel runs, the host reshapes Q, K and V from [4, 16, 2048, 64] to [64, 2048, 64] (batch-head pair
  `16 · b + h`) and changes their format (the identity over the extended reals), and builds the additive bias
  `-10⁶ · (1 - mask)`, broadcast over heads and reshaped to [64, 1, 2048].  Grid point `t` reads query tile
  `t / 4 % 2` of batch-head pair `t / 8`, and key, value and bias chunk `t % 4` of the same pair.
-/
import proofs.«411152_j3040836845869_3_alg».proof.Proof.Carry
import proofs.«411152_j3040836845869_3_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Online

open Idealize.ShloMosaic Idealize.ShloMosaic.TcCoe Idealize.SL.Sem Idealize.ShloMosaic.ValueIdx
open Cert.KernelIdeal Cert.KernelIdeal.Gen Cert.Attn

variable (m : (ℓ : Loc nD τ sig) → Buf (Elt Ideal) ℓ)

/-- The four argument arrays, at their literal types. -/
abbrev argQ (c : Dev nD) : SQ.Idx → EReal := m ((c : Thread nD τ).loc main_arg0)
abbrev argK (c : Dev nD) : SQ.Idx → EReal := m ((c : Thread nD τ).loc main_arg1)
abbrev argV (c : Dev nD) : SQ.Idx → EReal := m ((c : Thread nD τ).loc main_arg2)
abbrev argM (c : Dev nD) : SMask.Idx → BitVec 32 := m ((c : Thread nD τ).loc main_arg3)

/-! ## Where the blocks of a grid point lie

The index maps of the four input windows, related to the point's position once, over the whole grid. -/

private theorem idx_q : ∀ t : Fin cfg0.N, win0_0.index t (0 : Fin 3) = t.val / 8 ∧ win0_0.index t (1 : Fin 3) = t.val / 4 % 2
    ∧ win0_0.index t (2 : Fin 3) = 0 :=
  (by decide +kernel : ∀ t : Fin grid0.N, win0_0.index t (0 : Fin 3) = t.val / 8 ∧ win0_0.index t (1 : Fin 3) = t.val / 4 % 2
    ∧ win0_0.index t (2 : Fin 3) = 0)

private theorem idx_k : ∀ t : Fin cfg0.N, win0_1.index t (0 : Fin 3) = t.val / 8 ∧ win0_1.index t (1 : Fin 3) = t.val % 4
    ∧ win0_1.index t (2 : Fin 3) = 0 :=
  (by decide +kernel : ∀ t : Fin grid0.N, win0_1.index t (0 : Fin 3) = t.val / 8 ∧ win0_1.index t (1 : Fin 3) = t.val % 4
    ∧ win0_1.index t (2 : Fin 3) = 0)

private theorem idx_v : ∀ t : Fin cfg0.N, win0_2.index t (0 : Fin 3) = t.val / 8 ∧ win0_2.index t (1 : Fin 3) = t.val % 4
    ∧ win0_2.index t (2 : Fin 3) = 0 :=
  (by decide +kernel : ∀ t : Fin grid0.N, win0_2.index t (0 : Fin 3) = t.val / 8 ∧ win0_2.index t (1 : Fin 3) = t.val % 4
    ∧ win0_2.index t (2 : Fin 3) = 0)

private theorem idx_b : ∀ t : Fin cfg0.N, win0_3.index t (0 : Fin 3) = t.val / 8 ∧ win0_3.index t (1 : Fin 3) = 0
    ∧ win0_3.index t (2 : Fin 3) = t.val % 4 :=
  (by decide +kernel : ∀ t : Fin grid0.N, win0_3.index t (0 : Fin 3) = t.val / 8 ∧ win0_3.index t (1 : Fin 3) = 0
    ∧ win0_3.index t (2 : Fin 3) = t.val % 4)

/-- The key block of point `t` at `(0, kk, e)` is the reshaped key array at `(bh, s, e)`, where `bh = t / 8` and
    `s = 512 · (t % 4) + kk`. -/
private theorem kblk_read (c : Dev nD) (t : Fin cfg0.N) (kk : Fin 512) (e : Fin 64) (bh : Fin 64) (s : Fin 2048)
    (hbh : bh.val = t.val / 8) (hs : s.val = 512 * (t.val % 4) + kk.val) :
    kblk m c t (ix3 (0 : Fin 1) kk e) = (V m c main_v3 : S64x2048x64.Idx → EReal) (ix3 bh s e) := by
  show iblk m c 1 t _ = _
  unfold iblk
  rw [View.read_apply]
  show V m c main_v3 (((cfg0.win 1).blk t).view.emb (ix3 (0 : Fin 1) kk e)) = _
  congr 1
  funext a
  apply Fin.ext
  match a with
  | ⟨0, _⟩ => show win0_1.index t 0 * 1 + 1 * 0 = bh.val; rw [(idx_k t).1]; omega
  | ⟨1, _⟩ => show win0_1.index t 1 * 512 + 1 * kk.val = s.val; rw [(idx_k t).2.1]; omega
  | ⟨2, _⟩ => show win0_1.index t 2 * 64 + 1 * e.val = e.val; rw [(idx_k t).2.2]; omega

/-! ## What the host left in the kernel's operands

Each of Q, K, V reaches the kernel reshaped to [64, 2048, 64] and format-changed; the format change is the identity
over the extended reals, and the reshape keeps row-major positions: `(16 · b + h, s, e)` is `(b, h, s, e)`. -/

private theorem V_v3 (c : Dev nD) : @Eq (S64x2048x64.Idx → EReal) (V m c main_v3)
    (truncf (F := Ideal) .bf16 (shapeCast S64x2048x64 (argK m c) shapeCasts_S4x16x2048x64_S64x2048x64) bitsLt_bf16_f32) := by
  show StableHlo.after hostOps0 (fun b => m (c, b)) (Proc.devRef .tc main_v3) = _
  after_results
  rfl

/-- The reshape [4, 16, 2048, 64] → [64, 2048, 64] read at `(bh, s, e)` with `bh = 16 · b + h`. -/
private theorem reshape_qkv (x : SQ.Idx → EReal) (b : Fin 4) (h : Fin 16) (s : Fin 2048) (e : Fin 64) (bh : Fin 64)
    (hbh : bh.val = 16 * b.val + h.val) :
    shapeCast S64x2048x64 x shapeCasts_S4x16x2048x64_S64x2048x64 (ix3 bh s e) = x (ix4 b h s e) :=
  shapeCast_apply x _ _ _ (by
    rw [Shape.rowMajor_val_four, Shape.rowMajor_val_three]
    show ((b.val * 16 + h.val) * 2048 + s.val) * 64 + e.val = (bh.val * 2048 + s.val) * 64 + e.val
    rw [hbh]; omega)

/-! ## The query and value blocks, the same way -/

private theorem qblk_read (c : Dev nD) (t : Fin cfg0.N) (r : Fin 1024) (e : Fin 64) (bh : Fin 64) (s : Fin 2048)
    (hbh : bh.val = t.val / 8) (hs : s.val = 1024 * (t.val / 4 % 2) + r.val) :
    qblk m c t (ix3 (0 : Fin 1) r e) = (V m c main_v1 : S64x2048x64.Idx → EReal) (ix3 bh s e) := by
  show iblk m c 0 t _ = _
  unfold iblk
  rw [View.read_apply]
  show V m c main_v1 (((cfg0.win 0).blk t).view.emb (ix3 (0 : Fin 1) r e)) = _
  congr 1
  funext a
  apply Fin.ext
  match a with
  | ⟨0, _⟩ => show win0_0.index t 0 * 1 + 1 * 0 = bh.val; rw [(idx_q t).1]; omega
  | ⟨1, _⟩ => show win0_0.index t 1 * 1024 + 1 * r.val = s.val; rw [(idx_q t).2.1]; omega
  | ⟨2, _⟩ => show win0_0.index t 2 * 64 + 1 * e.val = e.val; rw [(idx_q t).2.2]; omega

private theorem vblk_read (c : Dev nD) (t : Fin cfg0.N) (kk : Fin 512) (e : Fin 64) (bh : Fin 64) (s : Fin 2048)
    (hbh : bh.val = t.val / 8) (hs : s.val = 512 * (t.val % 4) + kk.val) :
    vblk m c t (ix3 (0 : Fin 1) kk e) = (V m c main_v5 : S64x2048x64.Idx → EReal) (ix3 bh s e) := by
  show iblk m c 2 t _ = _
  unfold iblk
  rw [View.read_apply]
  show V m c main_v5 (((cfg0.win 2).blk t).view.emb (ix3 (0 : Fin 1) kk e)) = _
  congr 1
  funext a
  apply Fin.ext
  match a with
  | ⟨0, _⟩ => show win0_2.index t 0 * 1 + 1 * 0 = bh.val; rw [(idx_v t).1]; omega
  | ⟨1, _⟩ => show win0_2.index t 1 * 512 + 1 * kk.val = s.val; rw [(idx_v t).2.1]; omega
  | ⟨2, _⟩ => show win0_2.index t 2 * 64 + 1 * e.val = e.val; rw [(idx_v t).2.2]; omega

private theorem V_v1 (c : Dev nD) : @Eq (S64x2048x64.Idx → EReal) (V m c main_v1)
    (truncf (F := Ideal) .bf16 (shapeCast S64x2048x64 (argQ m c) shapeCasts_S4x16x2048x64_S64x2048x64) bitsLt_bf16_f32) := by
  show StableHlo.after hostOps0 (fun b => m (c, b)) (Proc.devRef .tc main_v1) = _
  after_results
  rfl

private theorem V_v5 (c : Dev nD) : @Eq (S64x2048x64.Idx → EReal) (V m c main_v5)
    (truncf (F := Ideal) .bf16 (shapeCast S64x2048x64 (argV m c) shapeCasts_S4x16x2048x64_S64x2048x64) bitsLt_bf16_f32) := by
  show StableHlo.after hostOps0 (fun b => m (c, b)) (Proc.devRef .tc main_v5) = _
  after_results
  rfl

/-! ## The bias

The host computes `-10⁶ · (1 - mask)` over [4, 2048], broadcasts it over heads through [4, 1, 1, 2048] and
[4, 16, 1, 2048], and reshapes it to [64, 1, 2048]: entry `(16 · b + h, 0, s)` is the value at `(b, s)`. -/

private theorem bblk_read (c : Dev nD) (t : Fin cfg0.N) (kk : Fin 512) (bh : Fin 64) (s : Fin 2048)
    (hbh : bh.val = t.val / 8) (hs : s.val = 512 * (t.val % 4) + kk.val) :
    bblk m c t (ix3 (0 : Fin 1) (0 : Fin 1) kk) = (V m c main_v13 : S64x1x2048.Idx → EReal) (ix3 bh (0 : Fin 1) s) := by
  show iblk m c 3 t _ = _
  unfold iblk
  rw [View.read_apply]
  show V m c main_v13 (((cfg0.win 3).blk t).view.emb (ix3 (0 : Fin 1) (0 : Fin 1) kk)) = _
  congr 1
  funext a
  apply Fin.ext
  match a with
  | ⟨0, _⟩ => show win0_3.index t 0 * 1 + 1 * 0 = bh.val; rw [(idx_b t).1]; omega
  | ⟨1, _⟩ => show win0_3.index t 1 * 1 + 1 * 0 = 0; rw [(idx_b t).2.1]
  | ⟨2, _⟩ => show win0_3.index t 2 * 512 + 1 * kk.val = s.val; rw [(idx_b t).2.2]; omega

/-- The host's bias array as a function of the mask. -/
private abbrev hostBias (M : SMask.Idx → BitVec 32) : S64x1x2048.Idx → EReal :=
  shapeCast S64x1x2048
    (broadcastInDim S4x16x1x2048 ![0, 1, 2, 3] bcast_S4x1x1x2048_S4x16x1x2048_0_1_2_3
      (broadcastInDim S4x1x1x2048 ![0, 3] bcast_S4x2048_S4x1x1x2048_0_3
        (mulf (F := Ideal) (broadcastInDim S4x2048 ![] bcast_S_S4x2048 (constant (F := Ideal) S_ .f32 0xC9742400#32))
          (subf (F := Ideal) (broadcastInDim S4x2048 ![] bcast_S_S4x2048 (constant (F := Ideal) S_ .f32 0x3F800000#32))
            (sitofp (F := Ideal) .f32 M)))))
    shapeCasts_S4x16x1x2048_S64x1x2048

private theorem V_v13 (c : Dev nD) : @Eq (S64x1x2048.Idx → EReal) (V m c main_v13) (hostBias (argM m c)) := by
  show StableHlo.after hostOps0 (fun b => m (c, b)) (Proc.devRef .tc main_v13) = _
  after_results
  rfl

private theorem hostBias_apply (M : SMask.Idx → BitVec 32) (b : Fin 4) (h : Fin 16) (s : Fin 2048) (bh : Fin 64)
    (hbh : bh.val = 16 * b.val + h.val) :
    hostBias M (ix3 bh (0 : Fin 1) s)
      = Ideal.ofBits .f32 0xC9742400#32 * (Ideal.ofBits .f32 0x3F800000#32 - (((M (ix2 b s)).toInt : ℝ) : EReal)) := by
  refine (shapeCast_apply _ _ _ (ix4 b h (0 : Fin 1) s) ?_).trans ?_
  · rw [Shape.rowMajor_val_four, Shape.rowMajor_val_three]
    show ((b.val * 16 + h.val) * 1 + 0) * 2048 + s.val = (bh.val * 1 + 0) * 2048 + s.val
    rw [hbh]; omega
  refine (broadcastInDim_apply _ _ _ _ (ix4 b (0 : Fin 1) (0 : Fin 1) s) (fun a => match a with
    | ⟨0, _⟩ => by show b.val = if (4 : Nat) = 1 then 0 else b.val; rw [if_neg (by decide)]
    | ⟨1, _⟩ => by show 0 = if (1 : Nat) = 1 then 0 else h.val; rw [if_pos rfl]
    | ⟨2, _⟩ => by show 0 = if (1 : Nat) = 1 then 0 else 0; rw [if_pos rfl]
    | ⟨3, _⟩ => by show s.val = if (2048 : Nat) = 1 then 0 else s.val; rw [if_neg (by decide)])).trans ?_
  refine (broadcastInDim_apply _ _ _ _ (ix2 b s) (fun a => match a with
    | ⟨0, _⟩ => by show b.val = if (4 : Nat) = 1 then 0 else b.val; rw [if_neg (by decide)]
    | ⟨1, _⟩ => by show s.val = if (2048 : Nat) = 1 then 0 else s.val; rw [if_neg (by decide)])).trans ?_
  rw [mulf_apply, subf_apply, broadcastInDim_apply _ bcast_S_S4x2048 _ _ ix0 (fun a => a.elim0),
    broadcastInDim_apply _ bcast_S_S4x2048 _ _ ix0 (fun a => a.elim0)]
  rfl

/-- Row `r`, column `e` of the query block of point `t` is Q at that batch, head and query position. -/
theorem qblk_apply (c : Dev nD) (t : Fin cfg0.N) (ht : t.val < 512) (r : Fin 1024) (e : Fin 64) :
    qblk m c t (ix3 (0 : Fin 1) r e) = argQ m c (ix4 (batchOf t.val ht) (headOf t.val) (qRow t.val r) e) := by
  rw [qblk_read m c t r e ⟨t.val / 8, by omega⟩ (qRow t.val r) rfl rfl, V_v1, truncf_apply,
    reshape_qkv _ (batchOf t.val ht) (headOf t.val) _ _ _
      (by show t.val / 8 = 16 * (t.val / 128) + t.val / 8 % 16; omega)]

/-- Row `kk`, column `e` of the key block of point `t` is K at key position `512 · (t % 4) + kk`. -/
theorem kblk_apply (c : Dev nD) (t : Fin cfg0.N) (ht : t.val < 512) (kk : Fin 512) (e : Fin 64) :
    kblk m c t (ix3 (0 : Fin 1) kk e) = argK m c (ix4 (batchOf t.val ht) (headOf t.val) (kRow t.val kk) e) := by
  rw [kblk_read m c t kk e ⟨t.val / 8, by omega⟩ (kRow t.val kk) rfl rfl, V_v3, truncf_apply,
    reshape_qkv _ (batchOf t.val ht) (headOf t.val) _ _ _
      (by show t.val / 8 = 16 * (t.val / 128) + t.val / 8 % 16; omega)]

/-- The same for the value block. -/
theorem vblk_apply (c : Dev nD) (t : Fin cfg0.N) (ht : t.val < 512) (kk : Fin 512) (e : Fin 64) :
    vblk m c t (ix3 (0 : Fin 1) kk e) = argV m c (ix4 (batchOf t.val ht) (headOf t.val) (kRow t.val kk) e) := by
  rw [vblk_read m c t kk e ⟨t.val / 8, by omega⟩ (kRow t.val kk) rfl rfl, V_v5, truncf_apply,
    reshape_qkv _ (batchOf t.val ht) (headOf t.val) _ _ _
      (by show t.val / 8 = 16 * (t.val / 128) + t.val / 8 % 16; omega)]

/-- Entry `kk` of the bias block of point `t`: minus a million times one minus the mask entry, as the host computed it. -/
theorem bblk_apply (c : Dev nD) (t : Fin cfg0.N) (ht : t.val < 512) (kk : Fin 512) :
    bblk m c t (ix3 (0 : Fin 1) (0 : Fin 1) kk)
      = Ideal.ofBits .f32 0xC9742400#32
          * (Ideal.ofBits .f32 0x3F800000#32
              - ((((argM m c (ix2 (batchOf t.val ht) (kRow t.val kk))).toInt : ℝ) : ℝ) : EReal)) := by
  rw [bblk_read m c t kk ⟨t.val / 8, by omega⟩ (kRow t.val kk) rfl rfl, V_v13,
    hostBias_apply _ (batchOf t.val ht) (headOf t.val) _ _
      (by show t.val / 8 = 16 * (t.val / 128) + t.val / 8 % 16; omega)]

end Cert.KernelIdeal.Online

end
-- ==== Proof.RowInvariant.lean ====
/-
  What the kernel writes for one query tile is the softmax-weighted average.

  Fix a group of four grid points (one query tile of one batch-head pair), a query row `r` of the tile and an output
  column `d`.  Over real inputs the scores of chunk `j` are the real scores at key positions `512 j … 512 j + 511`, so
  after the group's point `j` the three scratch entries of the row stand for the chunks `0 … j`, by induction over
  the four points; after the last one the quotient written to the output block is the average over all 2048 keys.
-/
import proofs.«411152_j3040836845869_3_alg».proof.Proof.Carry
import proofs.«411152_j3040836845869_3_alg».proof.Proof.KernelStep
import proofs.«411152_j3040836845869_3_alg».proof.Proof.Blocks
import proofs.«411152_j3040836845869_3_alg».proof.Proof.Consts

open scoped BigOperators

noncomputable section

namespace Cert.KernelIdeal.Online

open Idealize.ShloMosaic Idealize.ShloMosaic.TcCoe Idealize.SL.Sem Idealize.ShloMosaic.ValueIdx
open Cert.KernelIdeal Cert.KernelIdeal.Gen Cert.Attn Cert.LibBlockedSum

variable (m : (ℓ : Loc nD τ sig) → Buf (Elt Ideal) ℓ)

/-- Every entry of Q, K and V on core `c` is a real number. -/
structure RealArgs (c : Dev nD) : Prop where
  hQ : ∀ i, argQ m c i = (((argQ m c i).toReal : ℝ) : EReal)
  hK : ∀ i, argK m c i = (((argK m c i).toReal : ℝ) : EReal)
  hV : ∀ i, argV m c i = (((argV m c i).toReal : ℝ) : EReal)

/-- The coercion of a finite real sum is the sum of the coercions. -/
theorem coe_sum' {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The real scores of the row of point `t`, over all 2048 key positions; the real value entries of column `d`. -/
def Srow (c : Dev nD) (t : ℕ) (ht : t < 512) (r : Fin 1024) : Fin 2048 → ℝ :=
  scoreR (argQ m c) (argK m c) (argM m c) (batchOf t ht) (headOf t) (qRow t r)
def Wrow (c : Dev nD) (t : ℕ) (ht : t < 512) (d : Fin 64) : Fin 2048 → ℝ :=
  valR (argV m c) (batchOf t ht) (headOf t) d

/-- Key row `kk` of the chunk of point `t` is position `kk` of block `t % 4`. -/
theorem kRow_eq (t : ℕ) (a : Fin 4) (ha : a.val = t % 4) (kk : Fin 512) :
    kRow t kk = blockIdx 4 512 rfl a kk := by
  apply Fin.ext
  show 512 * (t % 4) + kk.val = a.val * 512 + kk.val
  rw [ha]; omega

/-- Over real inputs, the chunk's scores of point `t` are the real scores of block `t % 4`. -/
theorem scoreRow_real (c : Dev nD) (hr : RealArgs m c) (t : Fin cfg0.N) (ht : t.val < 512) (r : Fin 1024)
    (a : Fin 4) (ha : a.val = t.val % 4) :
    scoreRow (qblk m c t) (kblk m c t) (bblk m c t) r
      = fun kk => ((Srow m c t.val ht r (blockIdx 4 512 rfl a kk) : ℝ) : EReal) := by
  funext kk
  rw [← kRow_eq t.val a ha kk]
  unfold scoreRow Srow scoreR
  rw [bblk_apply m c t ht kk, Consts.ofBits_eighth, Consts.ofBits_neg_million, Consts.ofBits_one]
  have hs : (∑ e : Fin 64, qblk m c t (ix3 (0 : Fin 1) r e) * kblk m c t (ix3 (0 : Fin 1) kk e))
      = ((∑ e : Fin 64, (argQ m c (ix4 (batchOf t.val ht) (headOf t.val) (qRow t.val r) e)).toReal
            * (argK m c (ix4 (batchOf t.val ht) (headOf t.val) (kRow t.val kk) e)).toReal : ℝ) : EReal) := by
    rw [coe_sum']
    refine Finset.sum_congr rfl fun e _ => ?_
    rw [qblk_apply m c t ht r e, kblk_apply m c t ht kk e]
    exact (congrArg₂ (· * ·) (hr.hQ _) (hr.hK _)).trans (EReal.coe_mul _ _).symm
  rw [hs, ← EReal.coe_sub, ← EReal.coe_mul, ← EReal.coe_mul, ← EReal.coe_add]
  congr 1
  ring

/-- Over real inputs, the value entries of column `d` in the chunk of point `t` are those of block `t % 4`. -/
theorem valRow_real (c : Dev nD) (hr : RealArgs m c) (t : Fin cfg0.N) (ht : t.val < 512) (d : Fin 64)
    (a : Fin 4) (ha : a.val = t.val % 4) :
    (fun kk : Fin 512 => vblk m c t (ix3 (0 : Fin 1) kk d))
      = fun kk => ((Wrow m c t.val ht d (blockIdx 4 512 rfl a kk) : ℝ) : EReal) := by
  funext kk
  rw [← kRow_eq t.val a ha kk, vblk_apply m c t ht kk d]
  exact hr.hV _

/-- The rows do not change inside a group of four points. -/
theorem Srow_pred (c : Dev nD) (t : ℕ) (ht : t < 512) (h0 : ¬t % 4 = 0) (r : Fin 1024) :
    Srow m c (t - 1) (by omega) r = Srow m c t ht r := by
  unfold Srow
  have e1 : batchOf (t - 1) (by omega) = batchOf t ht := Fin.ext (by show (t - 1) / 128 = t / 128; omega)
  have e2 : headOf (t - 1) = headOf t := Fin.ext (by show (t - 1) / 8 % 16 = t / 8 % 16; omega)
  have e3 : qRow (t - 1) r = qRow t r := Fin.ext (by show 1024 * ((t - 1) / 4 % 2) + r.val = 1024 * (t / 4 % 2) + r.val; omega)
  rw [e1, e2, e3]

theorem Wrow_pred (c : Dev nD) (t : ℕ) (ht : t < 512) (h0 : ¬t % 4 = 0) (d : Fin 64) :
    Wrow m c (t - 1) (by omega) d = Wrow m c t ht d := by
  unfold Wrow
  have e1 : batchOf (t - 1) (by omega) = batchOf t ht := Fin.ext (by show (t - 1) / 128 = t / 128; omega)
  have e2 : headOf (t - 1) = headOf t := Fin.ext (by show (t - 1) / 8 % 16 = t / 8 % 16; omega)
  rw [e1, e2]

/-- After the group's point `j` the row's scratch entries stand for the chunks `0 … j`. -/
theorem row_inv (c : Dev nD) (hr : RealArgs m c) (r : Fin 1024) (d : Fin 64) :
    ∀ (j : ℕ) (t : Fin cfg0.N) (ht : t.val < 512), t.val % 4 = j →
      RowRep (fun j' k => Srow m c t.val ht r (blockIdx 4 512 rfl j' k))
        (fun j' k => Wrow m c t.val ht d (blockIdx 4 512 rfl j' k)) j
        ((carried m c t.val t.isLt).1 (ix2 r (0 : Fin 1)))
        ((carried m c t.val t.isLt).2.1 (ix2 r (0 : Fin 1)))
        ((carried m c t.val t.isLt).2.2 (ix2 r d))
  | 0, t, ht, hj => by
    rw [carried_first m c t hj]
    dsimp only [upd]
    rw [stepM_apply, stepL_apply, stepA_apply, initM_apply, initL_apply, initA_apply,
      scoreRow_real m c hr t ht r ⟨0, by decide⟩ hj.symm, valRow_real m c hr t ht d ⟨0, by decide⟩ hj.symm]
    exact rowRep_first _ _ (by decide) (by decide)
  | j + 1, t, ht, hj => by
    have h0 : ¬t.val % 4 = 0 := by omega
    have hj4 : j + 1 < 4 := by omega
    have hN : cfg0.N = 512 := N_0
    rw [carried_later m c t h0]
    dsimp only [upd]
    rw [stepM_apply, stepL_apply, stepA_apply,
      scoreRow_real m c hr t ht r ⟨j + 1, hj4⟩ hj.symm, valRow_real m c hr t ht d ⟨j + 1, hj4⟩ hj.symm]
    have ih := row_inv c hr r d j ⟨t.val - 1, by omega⟩ (by show t.val - 1 < 512; omega) (by show (t.val - 1) % 4 = j; omega)
    rw [show Srow m c (t.val - 1) (by omega) r = Srow m c t.val ht r from Srow_pred m c t.val ht h0 r,
      show Wrow m c (t.val - 1) (by omega) d = Wrow m c t.val ht d from Wrow_pred m c t.val ht h0 d] at ih
    exact rowRep_next _ _ j hj4 (by decide) ih

/-- The output block after a group's last point, entry by entry: the average over all keys. -/
theorem out_block_apply (c : Dev nD) (hr : RealArgs m c) (t : Fin cfg0.N) (ht : t.val < 512) (h3 : t.val % 4 = 3)
    (r : Fin 1024) (d : Fin 64) :
    (outsAt0 m c t.val t.isLt).1 (ix3 (0 : Fin 1) r d)
      = Gat (argQ m c) (argK m c) (argV m c) (argM m c) (batchOf t.val ht) (headOf t.val) (qRow t.val r) d := by
  rw [outsAt_out m c t h3, outO_apply]
  exact rowRep_last (nb := 4) (bs := 512) rfl (by decide) (Srow m c t.val ht r) (Wrow m c t.val ht d) 3 (by decide)
    (row_inv m c hr r d 3 t ht h3)

end Cert.KernelIdeal.Online

end
-- ==== Proof.KernelValue.lean ====
/-
  The kernel program's result array is the softmax-weighted average.

  Each group's last grid point writes its query tile of the [64, 2048, 64] result; those tiles cover the array, so
  after the run the array holds the average at every (batch-head pair, query position, column); the host's final
  reshape to [4, 16, 2048, 64] reads batch-head pair `16 · b + h` back as batch `b`, head `h`.
-/
import proofs.«411152_j3040836845869_3_alg».proof.Proof.RowInvariant
import Idealize.ShloMosaic.Lib.Pipeline.Value
import Idealize.ShloMosaic.Lib.StableHlo.Run

noncomputable section

namespace Cert.KernelIdeal.Online

open Idealize.ShloMosaic Idealize.ShloMosaic.TcCoe Idealize.SL.Sem Idealize.ShloMosaic.ValueIdx
open Idealize.ShloMosaic.Pipeline (Dat)
open Cert.KernelIdeal Cert.KernelIdeal.Gen Cert.Attn

variable (m : (ℓ : Loc nD τ sig) → Buf (Elt Ideal) ℓ) (ρ : Dev nD → PrngReg)

/-- The average, indexed as the kernel's own result array: batch-head pair, query position, column. -/
def Gflat (c : Dev nD) : S64x2048x64.Idx → EReal := fun i =>
  Gat (argQ m c) (argK m c) (argV m c) (argM m c)
    ⟨(i 0).val / 16, by have h : (i 0).val < 64 := (i 0).isLt; omega⟩
    ⟨(i 0).val % 16, Nat.mod_lt _ (by decide)⟩
    ⟨(i 1).val, (i 1).isLt⟩ ⟨(i 2).val, (i 2).isLt⟩

/-- The output window's block index at point `t`, decided over the grid. -/
theorem idx_facts4 : ∀ t : Fin cfg0.N, win0_4.index t (0 : Fin 3) = t.val / 8
    ∧ win0_4.index t (1 : Fin 3) = t.val / 4 % 2 ∧ win0_4.index t (2 : Fin 3) = 0 :=
  (by decide +kernel : ∀ t : Fin grid0.N, _)

/-- What a group's last point writes back is its tile of the average. -/
theorem flushed_eq (c : Dev nD) (hr : RealArgs m c) (t : Fin cfg0.N) (hf : (cfg0.win 4).flush t = true) :
    (dats m 0 c).flushed 4 t = ((cfg0.win 4).blk t).view.read (Elt Ideal) (Gflat m c) := by
  have h3 : t.val % 4 = 3 := (flush0_4 t).mp hf
  have ht : t.val < 512 := lt_of_lt_of_eq t.isLt (show cfg0.N = 512 from N_0)
  obtain ⟨e0, e1, e2⟩ := idx_facts4 t
  show (cfg0.win 4).cut (grid0.coords t) ((dats m 0 c).after 4 t) = _
  rw [after0_4]
  funext y
  have y0 : (y 0).val < 1 := (y 0).isLt
  have y1 : (y 1).val < 1024 := (y 1).isLt
  have y2 : (y 2).val < 64 := (y 2).isLt
  have hy : y = ix3 (⟨(y 0).val, y0⟩ : Fin 1) (⟨(y 1).val, y1⟩ : Fin 1024) (⟨(y 2).val, y2⟩ : Fin 64) :=
    funext fun a => Fin.ext (by match a with | ⟨0, _⟩ => rfl | ⟨1, _⟩ => rfl | ⟨2, _⟩ => rfl)
  show (outsAt0 m c t.val t.isLt).1 y = Gflat m c (((cfg0.win 4).blk t).view.emb y)
  have hz : (⟨(y 0).val, y0⟩ : Fin 1) = 0 := Fin.ext (by show (y 0).val = 0; omega)
  rw [hy, hz, out_block_apply m c hr t ht h3 ⟨(y 1).val, y1⟩ ⟨(y 2).val, y2⟩, ← hz, ← hy]
  unfold Gflat
  have c0 : ((((cfg0.win 4).blk t).view.emb y) 0).val = t.val / 8 := by
    show win0_4.index t (0 : Fin 3) * 1 + 1 * (y 0).val = t.val / 8
    omega
  have c1 : ((((cfg0.win 4).blk t).view.emb y) 1).val = 1024 * (t.val / 4 % 2) + (y 1).val := by
    show win0_4.index t (1 : Fin 3) * 1024 + 1 * (y 1).val = _
    omega
  have c2 : ((((cfg0.win 4).blk t).view.emb y) 2).val = (y 2).val := by
    show win0_4.index t (2 : Fin 3) * 64 + 1 * (y 2).val = _
    omega
  congr 1
  · exact Fin.ext (by show t.val / 128 = ((((cfg0.win 4).blk t).view.emb y) 0).val / 16; rw [c0]; omega)
  · exact Fin.ext (by show t.val / 8 % 16 = ((((cfg0.win 4).blk t).view.emb y) 0).val % 16; rw [c0])
  · exact Fin.ext (by show 1024 * (t.val / 4 % 2) + (y 1).val = ((((cfg0.win 4).blk t).view.emb y) 1).val; rw [c1])
  · exact Fin.ext (by show (y 2).val = ((((cfg0.win 4).blk t).view.emb y) 2).val; rw [c2])

/-- Every entry of the result array lies in the tile of some group's last point. -/
theorem covered (i : S64x2048x64.Idx) :
    ∃ t : Fin cfg0.N, (cfg0.win 4).flush t = true ∧ i ∈ ((cfg0.win 4).blk t).view.set := by
  have i0 : (i 0).val < 64 := (i 0).isLt
  have i1 : (i 1).val < 2048 := (i 1).isLt
  have i2 : (i 2).val < 64 := (i 2).isLt
  have hN : cfg0.N = 512 := N_0
  let t : Fin cfg0.N := ⟨((i 0).val * 2 + (i 1).val / 1024) * 4 + 3, by rw [hN]; omega⟩
  have tv : t.val = ((i 0).val * 2 + (i 1).val / 1024) * 4 + 3 := rfl
  obtain ⟨e0, e1, e2⟩ := idx_facts4 t
  refine ⟨t, (flush0_4 t).mpr (by rw [tv]; omega), ?_⟩
  show i ∈ ((View.whole main_v14).slice (win0_4.rect t)).set
  rw [View.set_slice_whole, Rect.mem_set_unit]
  intro a
  match a with
  | ⟨0, _⟩ =>
    show win0_4.index t (0 : Fin 3) * 1 ≤ (i 0).val ∧ (i 0).val < win0_4.index t (0 : Fin 3) * 1 + 1
    rw [e0, tv]; omega
  | ⟨1, _⟩ =>
    show win0_4.index t (1 : Fin 3) * 1024 ≤ (i 1).val ∧ (i 1).val < win0_4.index t (1 : Fin 3) * 1024 + 1024
    rw [e1, tv]; omega
  | ⟨2, _⟩ =>
    show win0_4.index t (2 : Fin 3) * 64 ≤ (i 2).val ∧ (i 2).val < win0_4.index t (2 : Fin 3) * 64 + 64
    rw [e2]; omega

/-- So the kernel's result array ends holding the average. -/
theorem final_out (c : Dev nD) (hr : RealArgs m c) : (dats m 0 c).arrAt 4 cfg0.N = Gflat m c :=
  (dats m 0 c).arrAt_eq_of_cover 4 (Gflat m c) (flushed_eq m c hr) (covered)

/-- The host's final reshape reads it back as the [4, 16, 2048, 64] average. -/
theorem tail_eq (c : Dev nD) (hr : RealArgs m c) :
    Pipeline.afterTail₀ cfgs (dats m) 0 (V0 m) [hostOps1] c main_v15
      = G (argQ m c) (argK m c) (argV m c) (argM m c) := by
  unfold Pipeline.afterTail₀
  show StableHlo.after hostOps1 _ (Proc.devRef .tc main_v15) = _
  after_results
  rw [(Pipeline.withArrays_arr spec0 launch0.win.arr_inj c _ _ 4).trans (final_out m c hr)]
  funext i
  obtain ⟨b, h, s, d, rfl⟩ : ∃ (b : Fin 4) (h : Fin 16) (s : Fin 2048) (d : Fin 64), i = ix4 b h s d :=
    ⟨_, _, _, _, eq_ix4 i⟩
  rw [G_ix4]
  have hb : b.val < 4 := b.isLt
  have hh : h.val < 16 := h.isLt
  refine (shapeCast_apply (Gflat m c) shapeCasts_S64x2048x64_S4x16x2048x64 (ix4 b h s d)
    (ix3 (⟨16 * b.val + h.val, by omega⟩ : Fin 64) s d) ?_).trans ?_
  · rw [Shape.rowMajor_val_three, Shape.rowMajor_val_four]
    show ((16 * b.val + h.val) * 2048 + s.val) * 64 + d.val = ((b.val * 16 + h.val) * 2048 + s.val) * 64 + d.val
    ring
  · unfold Gflat
    congr 1
    · exact Fin.ext (by show (16 * b.val + h.val) / 16 = b.val; omega)
    · exact Fin.ext (by show (16 * b.val + h.val) % 16 = h.val; omega)

/-- The kernel program's run: the result at the average, the arguments unchanged. -/
theorem run (hpre : ∀ c, RealArgs m c) :
    θ_run defs (onTc (τ := τ) (main (F := Ideal))) ⟨m, fun _ => 0, ρ⟩ fun r => ∀ c : Dev nD,
      r.2.mem ((c.tc : Thread nD τ).loc main_v15) = G (argQ m c) (argK m c) (argV m c) (argM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v15 (Pipeline.mem_restRefs_of main_v15 (by decide) (by decide))).trans (tail_eq m c (hpre c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Online

end
-- ==== Proof.RefValue.lean ====
/-
  The reference computes the softmax-weighted average.

  The reference forms every score, takes each row's maximum (from minus infinity), subtracts it, exponentiates,
  divides by the row's sum and contracts with V.  Over real inputs the row maximum is a real number, and the
  weighted average does not depend on which real is subtracted in the exponent.
-/
import proofs.«411152_j3040836845869_3_alg».proof.Proof.Gen.ReferenceIdeal.Read
import proofs.«411152_j3040836845869_3_alg».proof.Proof.Spec
import proofs.«411152_j3040836845869_3_alg».proof.Proof.Consts
import Idealize.ShloMosaic.PureOps.Ideal.Laws

open scoped BigOperators

noncomputable section

namespace Cert.ReferenceIdeal.RefValue

open Idealize.ShloMosaic Idealize.ShloMosaic.ValueIdx Cert.ReferenceIdeal Cert.ReferenceIdeal.Gen Cert.ReferenceIdeal.Read Cert.Attn

/-- The inclusion of the reals carries a finite sum to the sum of the inclusions. -/
private theorem coe_sum {ι : Type*} (s : Finset ι) (f : ι → ℝ) :
    ((∑ i ∈ s, f i : ℝ) : EReal) = ∑ i ∈ s, ((f i : ℝ) : EReal) := by
  classical
  refine Finset.induction_on s ?_ ?_
  · rw [Finset.sum_empty, Finset.sum_empty, EReal.coe_zero]
  · intro a s ha ih
    rw [Finset.sum_insert ha, Finset.sum_insert ha, EReal.coe_add, ih]

/-- One score, in extended-real arithmetic over real operands, is the real score. -/
private theorem score_arith (q k : Fin 64 → EReal) (hq : ∀ e, q e = (((q e).toReal : ℝ) : EReal))
    (hk : ∀ e, k e = (((k e).toReal : ℝ) : EReal)) (m : ℤ) :
    (∑ e : Fin 64, q e * k e) * ((1 / 8 : ℝ) : EReal)
        - ((1000000 : ℝ) : EReal) * (((1 : ℝ) : EReal) - ((m : ℝ) : EReal))
      = (((∑ e : Fin 64, (q e).toReal * (k e).toReal) * (1 / 8) - 1000000 * (1 - (m : ℝ)) : ℝ) : EReal) := by
  have hs : ∑ e : Fin 64, q e * k e = ((∑ e : Fin 64, (q e).toReal * (k e).toReal : ℝ) : EReal) := by
    rw [coe_sum]
    exact Finset.sum_congr rfl fun e _ => by rw [EReal.coe_mul, ← hq e, ← hk e]
  rw [hs, ← EReal.coe_sub, ← EReal.coe_mul, ← EReal.coe_mul, ← EReal.coe_sub]

section
variable (x0 x1 x2 : (⟨S4x16x2048x64, .f32⟩ : BufTy).Contents (Elt Ideal)) (x3 : (⟨S4x2048, .i32⟩ : BufTy).Contents (Elt Ideal))

/-- Every score of the reference is the real score. -/
private theorem score_eq (h0 : ∀ i, x0 i = (((x0 i).toReal : ℝ) : EReal)) (h1 : ∀ i, x1 i = (((x1 i).toReal : ℝ) : EReal))
    (b : Fin 4) (h : Fin 16) (s t : Fin 2048) :
    val_main_v10 (F := Ideal) x0 x1 x3 (ix4 b h s t) = ((scoreR x0 x1 x3 b h s t : ℝ) : EReal) := by
  have hl : ∀ e : Fin 64, lidx_main_v0 (ix4 b h s t) e = ix4 b h s e := fun e =>
    funext fun a => Fin.ext (by match a with | ⟨0, _⟩ => rfl | ⟨1, _⟩ => rfl | ⟨2, _⟩ => rfl | ⟨3, _⟩ => rfl)
  have hr : ∀ e : Fin 64, ridx_main_v0 (ix4 b h s t) e = ix4 b h t e := fun e =>
    funext fun a => Fin.ext (by match a with | ⟨0, _⟩ => rfl | ⟨1, _⟩ => rfl | ⟨2, _⟩ => rfl | ⟨3, _⟩ => rfl)
  have hm : idx_main_v4 (idx_main_v9 (ix4 b h s t)) = ix2 b t :=
    funext fun a => Fin.ext (by match a with | ⟨0, _⟩ => rfl | ⟨1, _⟩ => rfl)
  rw [val_main_v10_apply, val_main_v2_apply, val_main_v0_apply, val_main_v1_apply, val_main_cst_apply,
    val_main_v9_apply, val_main_v8_apply, val_main_v7_apply, val_main_cst_1_apply, val_main_v6_apply,
    val_main_v5_apply, val_main_cst_0_apply, val_main_v4_apply, val_main_v3_apply, hm]
  simp only [Ideal.subf_def, Ideal.mulf_def, Ideal.ofBits_def, Consts.ofBits_eighth, Consts.ofBits_million,
    Consts.ofBits_one, hl, hr]
  exact score_arith (fun e => x0 (ix4 b h s e)) (fun e => x1 (ix4 b h t e)) (fun e => h0 _) (fun e => h1 _)
    (x3 (ix2 b t)).toInt

/-- The row index with key position `k` put back on the last axis. -/
private theorem lift_ix3 (hR : S4x16x2048x2048.Reduces [3] S4x16x2048) (b : Fin 4) (h : Fin 16) (s : Fin 2048)
    (k : Fin (S4x16x2048x2048.size 3)) : hR.lift (ix3 b h s) k = ix4 b h s (⟨k.val, k.isLt⟩ : Fin 2048) := by
  funext c; apply Fin.ext
  fin_cases c <;> rfl

/-- The row maximum the reference subtracts is a real number. -/
private theorem rowmax_real (h0 : ∀ i, x0 i = (((x0 i).toReal : ℝ) : EReal)) (h1 : ∀ i, x1 i = (((x1 i).toReal : ℝ) : EReal))
    (b : Fin 4) (h : Fin 16) (s : Fin 2048) :
    ∃ c : ℝ, val_main_v13 (F := Ideal) x0 x1 x3 (ix3 b h s) = (c : EReal) := by
  have hR : S4x16x2048x2048.Reduces [3] S4x16x2048 := by decide
  obtain ⟨c, hc⟩ := fold_max_real (by decide : 0 < 2048) (scoreR x0 x1 x3 b h s)
  refine ⟨c, ?_⟩
  have hf : (val_main_v10 (F := Ideal) x0 x1 x3 ∘ hR.lift (ix3 b h s))
      = fun k : Fin 2048 => ((scoreR x0 x1 x3 b h s k : ℝ) : EReal) :=
    funext fun k => by
      show val_main_v10 (F := Ideal) x0 x1 x3 (hR.lift (ix3 b h s) k) = _
      rw [lift_ix3]
      exact score_eq x0 x1 x3 h0 h1 b h s _
  rw [val_main_v13_apply, val_main_v12_apply, val_main_cst_3_apply]
  unfold val_main_v11
  rw [Host.reduce_eq_fold_single FloatOps.maximumf _ _ reducesTo_S4x16x2048x2048_S4x16x2048_d3 hR h_S_ (ix3 b h s),
    val_main_cst_2_apply, hf, Ideal.ofBits_def, Consts.ofBits_neg_inf]
  exact (max_bot_left _).trans hc

/-- Every exponential of the reference, the row maximum being the real `c`. -/
private theorem exp_eq (h0 : ∀ i, x0 i = (((x0 i).toReal : ℝ) : EReal)) (h1 : ∀ i, x1 i = (((x1 i).toReal : ℝ) : EReal))
    (b : Fin 4) (h : Fin 16) (s : Fin 2048) (c : ℝ)
    (hc : val_main_v13 (F := Ideal) x0 x1 x3 (ix3 b h s) = (c : EReal)) (t : Fin 2048) :
    val_main_v17 (F := Ideal) x0 x1 x3 (ix4 b h s t)
      = Ideal.exp (((scoreR x0 x1 x3 b h s t : ℝ) : EReal) - (c : EReal)) := by
  have hi : idx_main_v14 (idx_main_v15 (ix4 b h s t)) = ix3 b h s :=
    funext fun a => Fin.ext (by match a with | ⟨0, _⟩ => rfl | ⟨1, _⟩ => rfl | ⟨2, _⟩ => rfl)
  rw [val_main_v17_apply, val_main_v16_apply, val_main_v15_apply, val_main_v14_apply, hi, hc,
    score_eq x0 x1 x3 h0 h1, Ideal.hostUnary_exp_def, Ideal.subf_def]

/-- The row's normaliser: the sum, from zero, of the exponentials. -/
private theorem norm_eq (h0 : ∀ i, x0 i = (((x0 i).toReal : ℝ) : EReal)) (h1 : ∀ i, x1 i = (((x1 i).toReal : ℝ) : EReal))
    (b : Fin 4) (h : Fin 16) (s : Fin 2048) (c : ℝ)
    (hc : val_main_v13 (F := Ideal) x0 x1 x3 (ix3 b h s) = (c : EReal)) :
    val_main_v18 (F := Ideal) x0 x1 x3 (ix3 b h s)
      = (0 : EReal) + ∑ t : Fin 2048, Ideal.exp (((scoreR x0 x1 x3 b h s t : ℝ) : EReal) - (c : EReal)) := by
  rw [val_main_v18_apply, val_main_cst_4_apply, Ideal.ofBits_def, Consts.ofBits_zero]
  refine congrArg (_ + ·) (Finset.sum_congr rfl fun t _ => ?_)
  have hi : idx_main_v18 (ix3 b h s) t = ix4 b h s t :=
    funext fun a => Fin.ext (by match a with | ⟨0, _⟩ => rfl | ⟨1, _⟩ => rfl | ⟨2, _⟩ => rfl | ⟨3, _⟩ => rfl)
  rw [hi]
  exact exp_eq x0 x1 x3 h0 h1 b h s c hc t

/-- Every weight of the reference: the exponential over the row's normaliser. -/
private theorem weight_eq (h0 : ∀ i, x0 i = (((x0 i).toReal : ℝ) : EReal)) (h1 : ∀ i, x1 i = (((x1 i).toReal : ℝ) : EReal))
    (b : Fin 4) (h : Fin 16) (s : Fin 2048) (c : ℝ)
    (hc : val_main_v13 (F := Ideal) x0 x1 x3 (ix3 b h s) = (c : EReal)) (t : Fin 2048) :
    val_main_v21 (F := Ideal) x0 x1 x3 (ix4 b h s t)
      = Ideal.div (Ideal.exp (((scoreR x0 x1 x3 b h s t : ℝ) : EReal) - (c : EReal)))
          ((0 : EReal) + ∑ t' : Fin 2048, Ideal.exp (((scoreR x0 x1 x3 b h s t' : ℝ) : EReal) - (c : EReal))) := by
  have hi : idx_main_v19 (idx_main_v20 (ix4 b h s t)) = ix3 b h s :=
    funext fun a => Fin.ext (by match a with | ⟨0, _⟩ => rfl | ⟨1, _⟩ => rfl | ⟨2, _⟩ => rfl)
  rw [val_main_v21_apply, val_main_v20_apply, val_main_v19_apply, hi, norm_eq x0 x1 x3 h0 h1 b h s c hc,
    exp_eq x0 x1 x3 h0 h1 b h s c hc, Ideal.hostDivf_def]

end

/-- Over real-valued Q, K and V the reference's result is the softmax-weighted average, entry by entry. -/
theorem ref_eq_G (x0 x1 x2 : (⟨S4x16x2048x64, .f32⟩ : BufTy).Contents (Elt Ideal)) (x3 : (⟨S4x2048, .i32⟩ : BufTy).Contents (Elt Ideal))
    (h0 : ∀ i, x0 i = (((x0 i).toReal : ℝ) : EReal)) (h1 : ∀ i, x1 i = (((x1 i).toReal : ℝ) : EReal))
    (h2 : ∀ i, x2 i = (((x2 i).toReal : ℝ) : EReal)) :
    val_main_v22 (F := Ideal) x0 x1 x2 x3 = G x0 x1 x2 x3 := by
  funext i
  obtain ⟨b, h, s, d, rfl⟩ : ∃ (b : Fin 4) (h : Fin 16) (s : Fin 2048) (d : Fin 64), i = ix4 b h s d :=
    ⟨_, _, _, _, eq_ix4 i⟩
  obtain ⟨c, hc⟩ := rowmax_real x0 x1 x3 h0 h1 b h s
  rw [G_ix4, val_main_v22_apply]
  unfold Gat
  rw [← ref_row (by decide : 0 < 2048) (scoreR x0 x1 x3 b h s) (valR x2 b h d) c]
  refine Finset.sum_congr rfl fun t _ => ?_
  have hl : lidx_main_v22 (ix4 b h s d) t = ix4 b h s t :=
    funext fun a => Fin.ext (by match a with | ⟨0, _⟩ => rfl | ⟨1, _⟩ => rfl | ⟨2, _⟩ => rfl | ⟨3, _⟩ => rfl)
  have hr : ridx_main_v22 (ix4 b h s d) t = ix4 b h t d :=
    funext fun a => Fin.ext (by match a with | ⟨0, _⟩ => rfl | ⟨1, _⟩ => rfl | ⟨2, _⟩ => rfl | ⟨3, _⟩ => rfl)
  have hv : x2 (ix4 b h t d) = ((valR x2 b h d t : ℝ) : EReal) := h2 (ix4 b h t d)
  rw [hl, hr, weight_eq x0 x1 x3 h0 h1 b h s c hc t, hv]

end Cert.ReferenceIdeal.RefValue

end
-- ==== Proof.Finite.lean ====
/-
  Under the precondition every entry of Q, K and V is a real number.

  The precondition says, of each of the three float arrays, that every entry's absolute value is below plus
  infinity; over the extended reals that excludes exactly the two infinities.
-/
import proofs.«411152_j3040836845869_3_alg».proof.Pre_finite_inputs
import proofs.«411152_j3040836845869_3_alg».proof.Proof.Gen.Pre_finite_inputs
import Idealize.ShloMosaic.Lib.ReduceAll
import Idealize.ShloMosaic.Lib.ValueIdx
import Idealize.ShloMosaic.PureOps.Ideal.Laws

noncomputable section

namespace Cert.Attn.Finite

open Idealize.ShloMosaic

/-- The bit pattern the absolute values are compared against denotes plus infinity. -/
private theorem top_word : Ideal.ofBits .f32 0x7F800000#32 = (⊤ : EReal) := by
  simp [Ideal.ofBits, Ideal.ieee]

/-- An extended real whose absolute value is strictly below plus infinity is a real: both infinities have absolute
    value plus infinity. -/
private theorem real_of_abs_lt (x : EReal)
    (h : Ideal.cmp .olt (max x (-x)) (Ideal.ofBits .f32 0x7F800000#32) = 1#1) :
    x = ((x.toReal : ℝ) : EReal) := by
  rw [top_word] at h
  induction x using EReal.rec with
  | bot => exfalso; simp [Ideal.cmp] at h
  | coe r => rw [EReal.toReal_coe]
  | top => exfalso; simp [Ideal.cmp] at h

/-- The precondition's word at the ideal instance, all ones, makes every entry of the three float arrays real. -/
theorem real_of_pre (Q K V : FVec Ideal Cert.Pre_finite_inputs.S4x16x2048x64 .f32) (M : IVec Cert.Pre_finite_inputs.S4x2048 32)
    (h : Cert.Pre_finite_inputs.fn (F := Ideal) Q K V M = fun _ => 1#1) :
    (∀ i, Q i = (((Q i).toReal : ℝ) : EReal)) ∧ (∀ i, K i = (((K i).toReal : ℝ) : EReal))
      ∧ (∀ i, V i = (((V i).toReal : ℝ) : EReal)) := by
  haveI : Subsingleton Cert.Pre_finite_inputs.S_.Idx := ⟨fun a b => funext fun d => d.elim0⟩
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  refine ⟨fun i => ?_, fun i => ?_, fun i => ?_⟩
  · exact real_of_abs_lt _ (Host.reduce_andi_all _ _ _ _ _ h1 i)
  · exact real_of_abs_lt _ (Host.reduce_andi_all _ _ _ _ _ h2 i)
  · exact real_of_abs_lt _ (Host.reduce_andi_all _ _ _ _ _ h3 i)

end Cert.Attn.Finite

end
-- ==== Proof.lean ====
/-
  The attention kernel against its reference, over the extended reals.

  The kernel tiles the queries of each batch-head pair into two tiles of 1024 rows and walks the 2048 keys in four
  chunks of 512 with an online softmax: a running row maximum, a running normaliser and a running weighted sum of
  the value rows, rescaled whenever the maximum grows, the quotient written once after the last chunk.  The reference
  forms all scores, takes each row's softmax in two passes and contracts it with V.  Over finite inputs both are the
  softmax-weighted average `(∑ₜ exp sₜ · V[t, d]) / (∑ₜ exp sₜ)` with
  `sₜ = (∑ₑ Q[s, e] · K[t, e]) / 8 - 10⁶ · (1 - mask[t])`: the average does not depend on the real number subtracted
  in the exponent, so neither the kernel's running maximum nor the reference's row maximum has to be identified.
  Finiteness of Q, K and V is what makes every intermediate a real number; the mask is an integer array and needs
  no condition.  The three frames are the generated ones (the reference's is its generated run with the result
  dropped), and the ideal pass rewrote nothing, so the preservation claim is trivial.
-/
import proofs.«411152_j3040836845869_3_alg».proof.Defs
import proofs.«411152_j3040836845869_3_alg».proof.Proof.Gen.Kernel.Frame
import proofs.«411152_j3040836845869_3_alg».proof.Proof.Gen.KernelIdeal.Frame
import proofs.«411152_j3040836845869_3_alg».proof.Proof.Gen.ReferenceIdeal
import proofs.«411152_j3040836845869_3_alg».proof.Proof.Gen.ReferenceIdeal.Run
import proofs.«411152_j3040836845869_3_alg».proof.Proof.Gen.ReferenceIdeal.Read
import proofs.«411152_j3040836845869_3_alg».proof.Proof.Gen.Pre_finite_inputs
import proofs.«411152_j3040836845869_3_alg».proof.Proof.KernelValue
import proofs.«411152_j3040836845869_3_alg».proof.Proof.RefValue
import proofs.«411152_j3040836845869_3_alg».proof.Proof.Finite

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at the softmax-weighted average of arguments that agree: the kernel by the induction over
    its key chunks, the reference by its two-pass softmax; the precondition makes Q, K and V real. -/
theorem algebraic : Cert.algebraic_KernelIdeal_ReferenceIdeal := by
  intro m ρ m' ρ' hpre hagree
  have hreal : ∀ c, Cert.KernelIdeal.Online.RealArgs m c := fun c =>
    have h := Cert.Attn.Finite.real_of_pre _ _ _ _ (hpre c)
    ⟨h.1, h.2.1, h.2.2⟩
  refine ⟨fun c => Cert.Attn.G (Cert.KernelIdeal.Online.argQ m c) (Cert.KernelIdeal.Online.argK m c)
    (Cert.KernelIdeal.Online.argV m c) (Cert.KernelIdeal.Online.argM m c), Cert.KernelIdeal.Online.run m ρ hreal, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, (hagree c).1, (hagree c).2.1, (hagree c).2.2.1, (hagree c).2.2.2]
  exact Cert.ReferenceIdeal.RefValue.ref_eq_G _ _ _ _ (hreal c).hQ (hreal c).hK (hreal c).hV

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
